-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x256x128 : Shape := ⟨4, ![1, 512, 256, 128]⟩
abbrev S512x128x128 : Shape := ⟨3, ![512, 128, 128]⟩
abbrev S256x256 : Shape := ⟨2, ![256, 256]⟩
abbrev S256 : Shape := ⟨1, ![256]⟩
abbrev S512x128x8 : Shape := ⟨3, ![512, 128, 8]⟩
abbrev S_ : Shape := ⟨0, ![]⟩

class Facts : Prop where
  bcast_S_S1x512x256x128 : S_.BroadcastsInDim S1x512x256x128 (![] : Fin 0 → Fin S1x512x256x128.rank)
  reducesTo_S1x512x256x128_S_d0_1_2_3 : S1x512x256x128.ReducesTo [0, 1, 2, 3] S_
  h_S_ : 0 < S_.numel
  bcast_S_S512x128x128 : S_.BroadcastsInDim S512x128x128 (![] : Fin 0 → Fin S512x128x128.rank)
  reducesTo_S512x128x128_S_d0_1_2 : S512x128x128.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x128x8 : S_.BroadcastsInDim S512x128x8 (![] : Fin 0 → Fin S512x128x8.rank)
  reducesTo_S512x128x8_S_d0_1_2 : S512x128x8.ReducesTo [0, 1, 2] S_

variable [Facts]

def fn_part1 {F : FTy → Type} [FloatOps F] (main_arg4 : IVec S512x128x8 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_c_6 : IVec S_ 32 := constantI S_ 32 0#32
  let main_v19 : IVec S512x128x8 32 := broadcastInDim S512x128x8 ![] bcast_S_S512x128x8 main_c_6
  let main_v20 : IVec S512x128x8 1 := cmpi .sge main_arg4 main_v19
  let main_c_7 : IVec S_ 1 := constantI S_ 1 1#1
  let main_v21 : IVec S_ 1 := (fun x v => Host.reduce IntOp.andi x v reducesTo_S512x128x8_S_d0_1_2 h_S_) main_v20 main_c_7
  let main_v22 : IVec S_ 1 := andi main_v18 main_v21
  main_v22

def fn {F : FTy → Type} [FloatOps F] (main_arg0 : FVec F S1x512x256x128 .f32) (main_arg1 : FVec F S512x128x128 .f32) (main_arg2 : FVec F S256x256 .f32) (main_arg3 : FVec F S256 .f32) (main_arg4 : IVec S512x128x8 32) : IVec S_ 1 :=
  let main_v0 : FVec F S1x512x256x128 .f32 := Host.absf main_arg0
  let main_cst : FVec F S_ .f32 := constant S_ .f32 0x7F800000#32
  let main_v1 : FVec F S1x512x256x128 .f32 := broadcastInDim S1x512x256x128 ![] bcast_S_S1x512x256x128 main_cst
  let main_v2 : IVec S1x512x256x128 1 := cmpf .olt main_v0 main_v1
  let main_c : IVec S_ 1 := constantI S_ 1 1#1
  let main_v3 : IVec S_ 1 := (fun x v => Host.reduce IntOp.andi x v reducesTo_S1x512x256x128_S_d0_1_2_3 h_S_) main_v2 main_c
  let main_v4 : FVec F S512x128x128 .f32 := Host.absf main_arg1
  let main_cst_0 : FVec F S_ .f32 := constant S_ .f32 0x7F800000#32
  let main_v5 : FVec F S512x128x128 .f32 := broadcastInDim S512x128x128 ![] bcast_S_S512x128x128 main_cst_0
  let main_v6 : IVec S512x128x128 1 := cmpf .olt main_v4 main_v5
  let main_c_1 : IVec S_ 1 := constantI S_ 1 1#1
  let main_v7 : IVec S_ 1 := (fun x v => Host.reduce IntOp.andi x v reducesTo_S512x128x128_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S1x512x256x128 : Shape := ⟨4, ![1, 512, 256, 128]⟩
abbrev S512x128x128 : Shape := ⟨3, ![512, 128, 128]⟩
abbrev S256x256 : Shape := ⟨2, ![256, 256]⟩
abbrev S256 : Shape := ⟨1, ![256]⟩
abbrev S512x128x8 : Shape := ⟨3, ![512, 128, 8]⟩
abbrev S512x256x128 : Shape := ⟨3, ![512, 256, 128]⟩
abbrev S128x256 : Shape := ⟨2, ![128, 256]⟩
abbrev S_ : Shape := ⟨0, ![]⟩
abbrev S512x8x128 : Shape := ⟨3, ![512, 8, 128]⟩
abbrev S512x256 : Shape := ⟨2, ![512, 256]⟩
abbrev S32x256x128 : Shape := ⟨3, ![32, 256, 128]⟩
abbrev S32x128x128 : Shape := ⟨3, ![32, 128, 128]⟩
abbrev S32x8x128 : Shape := ⟨3, ![32, 8, 128]⟩
abbrev S32x256 : Shape := ⟨2, ![32, 256]⟩
abbrev S1x1x256 : Shape := ⟨3, ![1, 1, 256]⟩
abbrev S32x128x256 : Shape := ⟨3, ![32, 128, 256]⟩
abbrev S32x1x128 : Shape := ⟨3, ![32, 1, 128]⟩
abbrev S32x128 : Shape := ⟨2, ![32, 128]⟩
abbrev S32x128x1 : Shape := ⟨3, ![32, 128, 1]⟩
abbrev S4096x128 : Shape := ⟨2, ![4096, 128]⟩
abbrev S4096x256 : Shape := ⟨2, ![4096, 256]⟩
abbrev S1x256 : Shape := ⟨2, ![1, 256]⟩

abbrev nBuf : Space → Nat
  | .hbm => 18
  | .vmem => 11
  | .smem => 0
  | _ => 0

abbrev bufTy : (tb : Table) → Fin (tcTables nBuf tb) → BufTy
  | .hbm, ⟨0, _⟩ => ⟨S1x512x256x128, .f32⟩
  | .hbm, ⟨1, _⟩ => ⟨S512x128x128, .f32⟩
  | .hbm, ⟨2, _⟩ => ⟨S256x256, .f32⟩
  | .hbm, ⟨3, _⟩ => ⟨S256, .f32⟩
  | .hbm, ⟨4, _⟩ => ⟨S512x128x8, .i32⟩
  | .hbm, ⟨5, _⟩ => ⟨S512x256x128, .f32⟩
  | .hbm, ⟨6, _⟩ => ⟨S128x256, .f32⟩
  | .hbm, ⟨7, _⟩ => ⟨S128x256, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S512x128x8, .i32⟩
  | .hbm, ⟨12, _⟩ => ⟨S512x128x8, .i32⟩
  | .hbm, ⟨13, _⟩ => ⟨S_, .i32⟩
  | .hbm, ⟨14, _⟩ => ⟨S512x128x8, .i32⟩
  | .hbm, ⟨15, _⟩ => ⟨S512x128x8, .i32⟩
  | .hbm, ⟨16, _⟩ => ⟨S512x8x128, .i32⟩
  | .hbm, ⟨17, _⟩ => ⟨S512x256, .f32⟩
  | .local _ .vmem, ⟨0, _⟩ => ⟨S32x256x128, .f32⟩
  | .local _ .vmem, ⟨1, _⟩ => ⟨S32x256x128, .f32⟩
  | .local _ .vmem, ⟨2, _⟩ => ⟨S32x128x128, .f32⟩
  | .local _ .vmem, ⟨3, _⟩ => ⟨S32x128x128, .f32⟩
  | .local _ .vmem, ⟨4, _⟩ => ⟨S32x8x128, .i32⟩
  | .local _ .vmem, ⟨5, _⟩ => ⟨S32x8x128, .i32⟩
  | .local _ .vmem, ⟨6, _⟩ => ⟨S128x256, .f32⟩
  | .local _ .vmem, ⟨7, _⟩ => ⟨S128x256, .f32⟩
  | .local _ .vmem, ⟨8, _⟩ => ⟨S256, .f32⟩
  | .local _ .vmem, ⟨9, _⟩ => ⟨S32x256, .f32⟩
  | .local _ .vmem, ⟨10, _⟩ => ⟨S32x256, .f32⟩
  | _, _ => ⟨S1x512x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x512x256x128_S512x256x128 : S1x512x256x128.ShapeCasts S512x256x128
  slices_S256x256_S128x256_0_0 : S256x256.Slices ![0, 0] S128x256
  slices_S256x256_S128x256_128_0 : S256x256.Slices ![128, 0] S128x256
  bcast_S_S512x128x8 : S_.BroadcastsInDim S512x128x8 (![] : Fin 0 → Fin S512x128x8.rank)
  transposes_S512x128x8_S512x8x128_0_2_1 : S512x128x8.Transposes [0, 2, 1] S512x8x128
  inb_S32x8x128_S32x8x128_0_0_0 : ∀ a, (![0, 0, 0] : Fin 3 → Nat) a + S32x8x128.size a ≤ S32x8x128.size a
  h_S32x8x128 : 0 < S32x8x128.numel
  shapeCasts_S32x8x128_S32x8x128 : S32x8x128.ShapeCasts S32x8x128
  iota_S1x1x256_d2_w32 : S1x1x256.Iotas .tc 32 [2]
  slices_S32x8x128_o0_0_0_S32x1x128 : S32x8x128.Slices ![0, 0, 0] S32x1x128
  shapeCasts_S32x1x128_S32x128 : S32x1x128.ShapeCasts S32x128
  shapeCasts_S32x128_S32x128x1 : S32x128.ShapeCasts S32x128x1
  broadcasts_S1x1x256_S32x128x256 : S1x1x256.Broadcasts S32x128x256
  broadcasts_S32x128x1_S32x128x256 : S32x128x1.Broadcasts S32x128x256
  natLt_1_32 : 1 < 32
  bitsLt_bf16_f32 : FTy.bits .bf16 < FTy.bits .f32
  slices_S32x8x128_o0_1_0_S32x1x128 : S32x8x128.Slices ![0, 1, 0] S32x1x128
  slices_S32x8x128_o0_2_0_S32x1x128 : S32x8x128.Slices ![0, 2, 0] S32x1x128
  slices_S32x8x128_o0_3_0_S32x1x128 : S32x8x128.Slices ![0, 3, 0] S32x1x128
  slices_S32x8x128_o0_4_0_S32x1x128 : S32x8x128.Slices ![0, 4, 0] S32x1x128
  slices_S32x8x128_o0_5_0_S32x1x128 : S32x8x128.Slices ![0, 5, 0] S32x1x128
  slices_S32x8x128_o0_6_0_S32x1x128 : S32x8x128.Slices ![0, 6, 0] S32x1x128
  slices_S32x8x128_o0_7_0_S32x1x128 : S32x8x128.Slices ![0, 7, 0] S32x1x128
  inb_S32x256x128_S32x256x128_0_0_0 : ∀ a, (![0, 0, 0] : Fin 3 → Nat) a + S32x256x128.size a ≤ S32x256x128.size a
  h_S32x256x128 : 0 < S32x256x128.numel
  shapeCasts_S32x256x128_S32x256x128 : S32x256x128.ShapeCasts S32x256x128
  inb_S32x128x128_S32x128x128_0_0_0 : ∀ a, (![0, 0, 0] : Fin 3 → Nat) a + S32x128x128.size a ≤ S32x128x128.size a
  h_S32x128x128 : 0 < S32x128x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S32x128x128_S4096x128 : S32x128x128.ShapeCasts S4096x128
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  shapeCasts_S4096x256_S32x128x256 : S4096x256.ShapeCasts S32x128x256
  reduces_S32x128x256_S32x256 : S32x128x256.Reduces [1] S32x256
  inb_S32x256_S32x256_0_0 : ∀ a, (![0, 0] : Fin 2 → Nat) a + S32x256.size a ≤ S32x256.size a
  h_S32x256 : 0 < S32x256.numel
  dot_S32x128x256_S32x256x128_S32x128x128_2_1_1_2_0_0_wf : DotDims.WF S32x128x256 S32x256x128 S32x128x128 [2] [1] [1] [2] [0] [0]
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x128.size a ≤ S512x256x128.size a
  hwx0_0 : ∀ i : grid0.Coords, EltTy.bits .f32 = 32 ∨ (Rect.block (s := S512x256x128) S32x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x128.size a ≤ S512x128x128.size a
  hwx0_1 : ∀ i : grid0.Coords, EltTy.bits .f32 = 32 ∨ (Rect.block (s := S512x128x128) S32x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x8x128.size a ≤ S512x8x128.size a
  hwx0_2 : ∀ i : grid0.Coords, EltTy.bits .i32 = 32 ∨ (Rect.block (s := S512x8x128) S32x8x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x256.size a ≤ S512x256.size a
  hwx0_6 : ∀ i : grid0.Coords, EltTy.bits .f32 = 32 ∨ (Rect.block (s := S512x256) S32x256.size (cc0_transform_6 i) (hinb0_6 i)).WholeWords (EltTy.packing .f32)

variable [Facts₀]

def dot_S32x128x256_S32x256x128_S32x128x128_2_1_1_2_0_0 : DotDims S32x128x256 S32x256x128 S32x128x128 where
  lhsContracting := [2]
  rhsContracting := [1]
  lhsNonContracting := [1]
  rhsNonContracting := [2]
  lhsBatch := [0]
  rhsBatch := [0]
  wf := dot_S32x128x256_S32x256x128_S32x128x128_2_1_1_2_0_0_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_v0) S32x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S32x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x512x256x128 : Shape := ⟨4, ![1, 512, 256, 128]⟩
abbrev S512x128x128 : Shape := ⟨3, ![512, 128, 128]⟩
abbrev S256x256 : Shape := ⟨2, ![256, 256]⟩
abbrev S256 : Shape := ⟨1, ![256]⟩
abbrev S512x128x8 : Shape := ⟨3, ![512, 128, 8]⟩
abbrev S512x256x128 : Shape := ⟨3, ![512, 256, 128]⟩
abbrev S_ : Shape := ⟨0, ![]⟩
abbrev S512x128x8x1 : Shape := ⟨4, ![512, 128, 8, 1]⟩
abbrev S512x128x8x128 : Shape := ⟨4, ![512, 128, 8, 128]⟩
abbrev S512x128x256 : Shape := ⟨3, ![512, 128, 256]⟩
abbrev S1x1x256 : Shape := ⟨3, ![1, 1, 256]⟩
abbrev S512x256 : Shape := ⟨2, ![512, 256]⟩

abbrev nBuf : Space → Nat
  | .hbm => 27
  | .vmem => 0
  | .smem => 0
  | _ => 0

abbrev bufTy : (tb : Table) → Fin (tcTables nBuf tb) → BufTy
  | .hbm, ⟨0, _⟩ => ⟨S1x512x256x128, .f32⟩
  | .hbm, ⟨1, _⟩ => ⟨S512x128x128, .f32⟩
  | .hbm, ⟨2, _⟩ => ⟨S256x256, .f32⟩
  | .hbm, ⟨3, _⟩ => ⟨S256, .f32⟩
  | .hbm, ⟨4, _⟩ => ⟨S512x128x8, .i32⟩
  | .hbm, ⟨5, _⟩ => ⟨S512x256x128, .f32⟩
  | .hbm, ⟨6, _⟩ => ⟨S_, .i32⟩
  | .hbm, ⟨7, _⟩ => ⟨S512x128x8, .i32⟩
  | .hbm, ⟨8, _⟩ => ⟨S512x128x8, .i1⟩
  | .hbm, ⟨9, _⟩ => ⟨S_, .i32⟩
  | .hbm, ⟨10, _⟩ => ⟨S512x128x8, .i32⟩
  | .hbm, ⟨11, _⟩ => ⟨S512x128x8, .i32⟩
  | .hbm, ⟨12, _⟩ => ⟨S512x128x8, .i32⟩
  | .hbm, ⟨13, _⟩ => ⟨S512x128x8x1, .i32⟩
  | .hbm, ⟨14, _⟩ => ⟨S512x128x8x128, .f32⟩
  | .hbm, ⟨15, _⟩ => ⟨S_, .f32⟩
  | .hbm, ⟨16, _⟩ => ⟨S512x128x128, .f32⟩
  | .hbm, ⟨17, _⟩ => ⟨S512x128x256, .f32⟩
  | .hbm, ⟨18, _⟩ => ⟨S512x128x256, .f32⟩
  | .hbm, ⟨19, _⟩ => ⟨S1x1x256, .f32⟩
  | .hbm, ⟨20, _⟩ => ⟨S512x128x256, .f32⟩
  | .hbm, ⟨21, _⟩ => ⟨S512x128x256, .f32⟩
  | .hbm, ⟨22, _⟩ => ⟨S_, .f32⟩
  | .hbm, ⟨23, _⟩ => ⟨S512x128x256, .f32⟩
  | .hbm, ⟨24, _⟩ => ⟨S512x128x256, .f32⟩
  | .hbm, ⟨25, _⟩ => ⟨S_, .f32⟩
  | .hbm, ⟨26, _⟩ => ⟨S512x256, .f32⟩
  | _, _ => ⟨S1x512x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  shapeCasts_S1x512x256x128_S512x256x128 : S1x512x256x128.ShapeCasts S512x256x128
  bcast_S_S512x128x8 : S_.BroadcastsInDim S512x128x8 (![] : Fin 0 → Fin S512x128x8.rank)
  bcast_S512x128x8_S512x128x8x1_0_1_2 : S512x128x8.BroadcastsInDim S512x128x8x1 (![0, 1, 2] : Fin 3 → Fin S512x128x8x1.rank)
  reducesTo_S512x128x8x128_S512x128x128_d2 : S512x128x8x128.ReducesTo [2] S512x128x128
  h_S_ : 0 < S_.numel
  concatenates_S512x128x128_S512x128x128_S512x128x256_d2 : Shape.Concatenates [S512x128x128, S512x128x128] S512x128x256 2
  bcast_S256_S1x1x256_2 : S256.BroadcastsInDim S1x1x256 (![2] : Fin 1 → Fin S1x1x256.rank)
  bcast_S1x1x256_S512x128x256_0_1_2 : S1x1x256.BroadcastsInDim S512x128x256 (![0, 1, 2] : Fin 3 → Fin S512x128x256.rank)
  bcast_S_S512x128x256 : S_.BroadcastsInDim S512x128x256 (![] : Fin 0 → Fin S512x128x256.rank)
  reducesTo_S512x128x256_S512x256_d1 : S512x128x256.ReducesTo [1] S512x256
  gather_S512x256x128_S512x128x8x1_S512x128x8x128_3_1_0_0_1_3_11128_wf : GatherDims.WF S512x256x128 S512x128x8x1 S512x128x8x128 [3] [1] [0] [1] [0] 3 ![1, 1, 128]
  dot_S512x128x256_S256x256_S512x128x256_2_0_01_1_n_n_wf : DotDims.WF S512x128x256 S256x256 S512x128x256 [2] [0] [0, 1] [1] [] []

variable [Facts₀]

def gather_S512x256x128_S512x128x8x1_S512x128x8x128_3_1_0_0_1_3_11128 : GatherDims S512x256x128 S512x128x8x1 S512x128x8x128 where
  offsetDims := [3]
  collapsedSliceDims := [1]
  operandBatchingDims := [0]
  startIndicesBatchingDims := [0]
  startIndexMap := [1]
  indexVectorDim := 3
  sliceSizes := ![1, 1, 128]
  wf := gather_S512x256x128_S512x128x8x1_S512x128x8x128_3_1_0_0_1_3_11128_wf
def dot_S512x128x256_S256x256_S512x128x256_2_0_01_1_n_n : DotDims S512x128x256 S256x256 S512x128x256 where
  lhsContracting := [2]
  rhsContracting := [0]
  lhsNonContracting := [0, 1]
  rhsNonContracting := [1]
  lhsBatch := []
  rhsBatch := []
  wf := dot_S512x128x256_S256x256_S512x128x256_2_0_01_1_n_n_wf

class Facts : Prop extends Facts₀ where

variable [Facts]
-- ==== Proof.Spec.lean ====
/-
  The readout both programs compute, as ONE function of the argument arrays, and the algebra that joins the two ways
  of computing it.

  For a molecule b, an atom a and a hidden unit h:
    message b a d = sum over the 8 neighbour slots k of bond[0, b, row(b, a, k), d]
    hidden  b a h = max( sum_c atom[b,a,c] * W[c,h]  +  sum_d message b a d * W[128+d,h]  +  bias[h] , 0 )
    readout b h   = sum over the 128 atoms a of hidden b a h
  where row(b, a, k) is the bond row the neighbour word selects: the word read as a signed integer and brought into
  [0, 255] (`rowOf`). The words themselves are a parameter: one program reaches them by wrapping a negative index round
  (`refWord`), the other by clipping (`clipWord`); on a non-negative index both select the same row.

  The kernel gathers by a matrix product with a count matrix: count(n) = how many of the 8 neighbour words select row n,
  added up one comparison at a time. `onehot_rows` says the product of that count with the bond rows is the sum of the
  selected rows. The counts are non-negative, which is what lets the product distribute over them on the extended
  reals with no finiteness assumption on the bond features.
-/
import Idealize.ShloMosaic.PureOps.Ideal
import Idealize.ShloMosaic.Lib.ValueIdx
import Mathlib.Data.EReal.Operations
import Mathlib.Algebra.BigOperators.Fin

noncomputable section

namespace Cert.Readout

open Idealize.ShloMosaic Idealize.ShloMosaic.ValueIdx

/-- The bond row a neighbour word selects: the word as a signed integer, a negative one sent to row 0 and one above 255
    to row 255. -/
def rowOf (w : BitVec 32) : Fin 256 := ⟨min w.toInt.toNat 255, by omega⟩

/-- A negative index wrapped round by the extent 256, any other index kept. -/
def refWord (v : BitVec 32) : BitVec 32 := Scalar.select (IntOp.cmpi .slt v 0#32) (IntOp.addi v 256#32) v

/-- An index clipped into [0, 255] as signed integers. -/
def clipWord (v : BitVec 32) : BitVec 32 := IntOp.minsi 255#32 (IntOp.maxsi 0#32 v)

/-- Row c of the weight matrix's upper half (the atom features' rows). -/
def lo (c : Fin 128) : Fin 256 := ⟨c.val, by omega⟩
/-- Row 128 + d of the weight matrix: its lower half (the messages' rows). -/
def hi (d : Fin 128) : Fin 256 := ⟨128 + d.val, by omega⟩

abbrev SBond : Shape := ⟨4, ![1, 512, 256, 128]⟩
abbrev SAtom : Shape := ⟨3, ![512, 128, 128]⟩
abbrev SW : Shape := ⟨2, ![256, 256]⟩
abbrev SBias : Shape := ⟨1, ![256]⟩
abbrev SNbr : Shape := ⟨3, ![512, 128, 8]⟩
abbrev SOut : Shape := ⟨2, ![512, 256]⟩

/-- The message an atom receives: the sum of its 8 neighbour bonds' feature d. -/
def message (w : SNbr.Idx → BitVec 32) (bond : SBond.Idx → EReal) (b : Fin 512) (a : Fin 128) (d : Fin 128) : EReal :=
  ∑ k : Fin 8, bond (ix4 (0 : Fin 1) b (rowOf (w (ix3 b a k))) d)

/-- One atom's hidden unit: the dense layer over its own features and its message, the bias, then the ramp. -/
def hidden (w : SNbr.Idx → BitVec 32) (bond : SBond.Idx → EReal) (atom : SAtom.Idx → EReal) (W : SW.Idx → EReal)
    (bias : SBias.Idx → EReal) (b : Fin 512) (a : Fin 128) (h : Fin 256) : EReal :=
  max ((∑ c : Fin 128, atom (ix3 b a c) * W (ix2 (lo c) h)) + (∑ d : Fin 128, message w bond b a d * W (ix2 (hi d) h))
    + bias (ix1 h)) 0

/-- The readout: a molecule's hidden units summed over its atoms. -/
def readout (w : SNbr.Idx → BitVec 32) (bond : SBond.Idx → EReal) (atom : SAtom.Idx → EReal) (W : SW.Idx → EReal)
    (bias : SBias.Idx → EReal) : SOut.Idx → EReal :=
  fun i => ∑ a : Fin 128, hidden w bond atom W bias (i 0) a (i 1)

/-- The readout depends on the words only through the rows they select. -/
theorem readout_congr (w w' : SNbr.Idx → BitVec 32) (hw : ∀ i, rowOf (w i) = rowOf (w' i)) (bond : SBond.Idx → EReal)
    (atom : SAtom.Idx → EReal) (W : SW.Idx → EReal) (bias : SBias.Idx → EReal) :
    readout w bond atom W bias = readout w' bond atom W bias := by
  funext i
  simp only [readout, hidden, message, hw]

/-! ## A sum over the 256 weight rows, split at row 128 -/

theorem sum_split (f : Fin 256 → EReal) :
    ∑ c : Fin 256, f c = (∑ c : Fin 128, f (lo c)) + ∑ d : Fin 128, f (hi d) := by
  have h := Fin.sum_univ_add (M := EReal) (a := 128) (b := 128) f
  refine h.trans ?_
  congr 1

/-! ## The count matrix against the bond rows -/

/-- 1 at the row the word selects, 0 at every other row. -/
def hit (v : BitVec 32) (n : Fin 256) : EReal := if n = rowOf v then 1 else 0

theorem hit_nonneg (v : BitVec 32) (n : Fin 256) : 0 ≤ hit v n := by
  unfold hit; split <;> simp

/-- Against the rows, one word's indicator picks out its row. -/
theorem sum_hit_mul (v : BitVec 32) (y : Fin 256 → EReal) : ∑ n : Fin 256, hit v n * y n = y (rowOf v) := by
  simp only [hit, ite_mul, one_mul, zero_mul]
  rw [Finset.sum_ite_eq']
  simp

/-- A sum of non-negative extended reals times any extended real distributes (it need not for terms of both signs). -/
theorem sum_nonneg_mul {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a) (Finset.sum_nonneg fun i _ => hf i), ih]

/-- The count matrix built one comparison at a time, multiplied into the rows, is the sum of the eight selected rows. -/
theorem onehot_rows (w : Fin 8 → BitVec 32) (y : Fin 256 → EReal) :
    ∑ n : Fin 256, ((((((((0 + hit (w 0) n) + hit (w 1) n) + hit (w 2) n) + hit (w 3) n) + hit (w 4) n) + hit (w 5) n)
        + hit (w 6) n) + hit (w 7) n) * y n
      = ∑ k : Fin 8, y (rowOf (w k)) := by
  have hc : ∀ n : Fin 256, ((((((((0 + hit (w 0) n) + hit (w 1) n) + hit (w 2) n) + hit (w 3) n) + hit (w 4) n) + hit (w 5) n)
        + hit (w 6) n) + hit (w 7) n) = ∑ k : Fin 8, hit (w k) n := by
    intro n; rw [Fin.sum_univ_eight, zero_add]
  simp only [hc]
  have hd : ∀ n : Fin 256, (∑ k : Fin 8, hit (w k) n) * y n = ∑ k : Fin 8, hit (w k) n * y n :=
    fun n => sum_nonneg_mul _ _ (fun k => hit_nonneg _ _) _
  simp only [hd]
  rw [Finset.sum_comm]
  exact Finset.sum_congr rfl fun k _ => sum_hit_mul (w k) y

/-- A comparison of a row number with a neighbour word, both as reals, widened to a word and read back as a real, is
    that word's indicator — for a word in [0, 255] and a 32-bit word `a` that holds the row number. -/
theorem cmp_hit (n : Fin 256) (v a : BitVec 32) (hv : 0 ≤ v.toInt ∧ v.toInt ≤ 255) (ha : a.toInt = (n.val : ℤ)) :
    ((((Ideal.cmp .oeq ((a.toInt : ℝ) : EReal) ((v.toInt : ℝ) : EReal)).setWidth 32).toInt : ℝ) : EReal) = hit v n := by
  have hrow : (rowOf v).val = v.toInt.toNat := by
    show min v.toInt.toNat 255 = _
    omega
  unfold Ideal.cmp hit
  by_cases h : n = rowOf v
  · have hz : (a.toInt : ℤ) = v.toInt := by
      rw [ha, h, hrow]; omega
    simp [h, hz]
  · have hz : ¬ (a.toInt : ℤ) = v.toInt := by
      intro he
      apply h
      apply Fin.ext
      rw [hrow]
      omega
    have hr : ¬ (((a.toInt : ℝ) : EReal) = ((v.toInt : ℝ) : EReal)) := by
      intro he
      exact hz (by exact_mod_cast EReal.coe_injective he)
    simp [h, hr]

end Cert.Readout

end
-- ==== Proof.Words.lean ====
/-
  The neighbour words as signed 32-bit integers: a clipped word lies in [0, 255], and on a non-negative index the
  clipped word and the wrapped word select the same bond row.
-/
import proofs.«407583_j89885075571228_3_alg».proof.Proof.Spec

namespace Cert.Readout

open Idealize.ShloMosaic

private theorem toInt_255 : (255#32 : BitVec 32).toInt = 255 := by decide
private theorem toInt_0 : (0#32 : BitVec 32).toInt = 0 := by decide

/-- The larger of 0 and v, as signed integers, read as an integer. -/
private theorem toInt_maxsi_zero (v : BitVec 32) : (IntOp.maxsi 0#32 v).toInt = max 0 v.toInt := by
  unfold IntOp.maxsi
  split
  · rename_i h
    rw [BitVec.slt_iff_toInt_lt, toInt_0] at h
    rw [toInt_0]; omega
  · rename_i h
    rw [BitVec.slt_iff_toInt_lt, toInt_0] at h
    omega

/-- The smaller of 255 and m, as signed integers, read as an integer. -/
private theorem toInt_minsi_255 (m : BitVec 32) : (IntOp.minsi 255#32 m).toInt = min 255 m.toInt := by
  unfold IntOp.minsi
  split
  · rename_i h
    rw [BitVec.slt_iff_toInt_lt, toInt_255] at h
    rw [toInt_255]; omega
  · rename_i h
    rw [BitVec.slt_iff_toInt_lt, toInt_255] at h
    omega

/-- A clipped word, read as an integer, is the index brought into [0, 255]. -/
theorem toInt_clipWord (v : BitVec 32) : (clipWord v).toInt = min 255 (max 0 v.toInt) := by
  unfold clipWord
  rw [toInt_minsi_255, toInt_maxsi_zero]

/-- A clipped word lies in [0, 255]. -/
theorem clip_bounds (v : BitVec 32) : 0 ≤ (clipWord v).toInt ∧ (clipWord v).toInt ≤ 255 := by
  rw [toInt_clipWord]
  omega

/-- A non-negative index is not wrapped. -/
theorem refWord_of_nonneg (v : BitVec 32) (hv : 0 ≤ v.toInt) : refWord v = v := by
  have hneg : v.slt 0#32 = false := by
    rw [Bool.eq_false_iff]
    intro h
    rw [BitVec.slt_iff_toInt_lt, toInt_0] at h
    omega
  unfold refWord Scalar.select IntOp.cmpi
  simp only [hneg]
  rfl

/-- On a non-negative index, clipping and wrapping select the same bond row. -/
theorem rowOf_clip_eq_ref (v : BitVec 32) (hv : 0 ≤ v.toInt) : rowOf (clipWord v) = rowOf (refWord v) := by
  rw [refWord_of_nonneg v hv]
  apply Fin.ext
  show min (clipWord v).toInt.toNat 255 = min v.toInt.toNat 255
  rw [toInt_clipWord]
  omega

end Cert.Readout
-- ==== Proof.PreFacts.lean ====
/-
  What the precondition says of the neighbour indices: its last conjunct is the conjunction, over every index, of the
  signed comparison "index ≥ 0"; when the whole precondition holds, each of those comparisons holds.
-/
import proofs.«407583_j89885075571228_3_alg».proof.Proof.Gen.Pre_finite_inputs
import Idealize.ShloMosaic.Lib.ReduceAll
import Idealize.ShloMosaic.Lib.Affine

namespace Cert.Readout.Pre

open Idealize.ShloMosaic Cert.Pre_finite_inputs

/-- The rank-0 shape has exactly one index. -/
instance : Subsingleton S_.Idx := ⟨fun _ _ => funext fun d => d.elim0⟩

/-- Under the precondition every neighbour index is non-negative. -/
theorem nbrs_nonneg {F : FTy → Type} [FloatOps F] (x0 : FVec F S1x512x256x128 .f32) (x1 : FVec F S512x128x128 .f32)
    (x2 : FVec F S256x256 .f32) (x3 : FVec F S256 .f32) (x4 : IVec S512x128x8 32)
    (h : fn (F := F) x0 x1 x2 x3 x4 = fun _ => 1#1) (i : S512x128x8.Idx) : 0 ≤ (x4 i).toInt := by
  -- the precondition at the one index of its rank-0 result
  have h0 := congrFun h (fun d => d.elim0)
  dsimp only [fn, fn_part1] at h0
  -- its outermost conjunction: the right conjunct is the all-reduction of the comparisons
  change IntOp.andi _ _ = 1#1 at h0
  obtain ⟨-, hall⟩ := IntOp.andi_eq_one.1 h0
  -- every comparison under an all-reduction that came out true is true
  have hi := Host.reduce_andi_all _ _ _ _ _ hall i
  -- the comparison at index i is "0 ≤ index i" on signed integers
  change IntOp.cmpi .sge (x4 i) 0#32 = 1#1 at hi
  rw [IntOp.cmpi_sge] at hi
  exact hi

end Cert.Readout.Pre
-- ==== Proof.RefValue.lean ====
/-
  The reference program read as one function of its arguments.

  Stage by stage: the start index the gather reads for neighbour slot (b, a, k) is the neighbour word with a negative
  value wrapped round by 256; the gather reads molecule b's bond table at that index taken as a signed integer and
  clamped into [0, 255], which is the row `rowOf` names; summing over the 8 slots gives the message; the joined array
  holds the atom features in its first 128 columns and the messages in its last 128, so the dense layer's sum over the
  256 weight rows splits into the two halves; the bias and the ramp give the hidden unit, and the sum over the 128
  atoms the readout.
-/
import proofs.«407583_j89885075571228_3_alg».proof.Proof.Gen.ReferenceIdeal.Read
import proofs.«407583_j89885075571228_3_alg».proof.Proof.Spec
import Idealize.ShloMosaic.Lib.ValueIdx
import Idealize.ShloMosaic.Lib.Pipeline.Value
import Idealize.ShloMosaic.PureOps.Ideal.Laws

noncomputable section
namespace Cert.Readout.Ref
open Idealize.ShloMosaic Idealize.ShloMosaic.ValueIdx Cert.ReferenceIdeal Cert.ReferenceIdeal.Read Cert.Readout

/-- The start index the gather reads for neighbour slot (b, a, k) is the wrapped neighbour word. -/
theorem word_apply (x4 : (⟨S512x128x8, .i32⟩ : BufTy).Contents (Elt Ideal)) (b : Fin 512) (a : Fin 128) (k : Fin 8) :
    val_main_v6 (F := Ideal) x4 (ix4 b a k (0 : Fin 1)) = refWord (x4 (ix3 b a k)) := by
  have hi : idx_main_v6 (ix4 b a k (0 : Fin 1)) = ix3 b a k := by
    funext e
    match e with
    | ⟨0, _⟩ => rfl
    | ⟨1, _⟩ => rfl
    | ⟨2, _⟩ => rfl
  rw [val_main_v6_apply, hi, val_main_v5_apply, val_main_v2_apply, val_main_v4_apply, val_main_v1_apply,
    val_main_v3_apply, val_main_c_apply, val_main_c_0_apply]
  rfl

/-- The reshape drops the leading unit axis. -/
theorem bond_apply (x0 : (⟨S1x512x256x128, .f32⟩ : BufTy).Contents (Elt Ideal)) (b : Fin 512) (r : Fin 256) (d : Fin 128) :
    val_main_v0 (F := Ideal) x0 (ix3 b r d) = x0 (ix4 (0 : Fin 1) b r d) := by
  rw [val_main_v0_apply]
  congr 1
  funext e
  have hb := b.isLt
  have hr := r.isLt
  have hd := d.isLt
  match e with
  | ⟨0, _⟩ => rfl
  | ⟨1, _⟩ => exact Fin.ext (by show ((b.val * 256 + r.val) * 128 + d.val) / 32768 % 512 = b.val; omega)
  | ⟨2, _⟩ => exact Fin.ext (by show ((b.val * 256 + r.val) * 128 + d.val) / 128 % 256 = r.val; omega)
  | ⟨3, _⟩ => exact Fin.ext (by show ((b.val * 256 + r.val) * 128 + d.val) % 128 = d.val; omega)

/-- The gather read at (b, a, k, d): molecule b's bond table at the row the start index selects (the index read signed
    and clamped into [0, 255]), feature d. -/
theorem gather_apply {α : Type} (x : S512x256x128.Idx → α) (idx : IVec S512x128x8x1 32)
    (b : Fin 512) (a : Fin 128) (k : Fin 8) (d : Fin 128) :
    Host.gather gather_S512x256x128_S512x128x8x1_S512x128x8x128_3_1_0_0_1_3_11128 x idx (ix4 b a k d)
      = x (ix3 b (rowOf (idx (ix4 b a k (0 : Fin 1)))) d) := by
  -- the batching axis: no start, no offset, the molecule's coordinate
  have h0 : gather_S512x256x128_S512x128x8x1_S512x128x8x128_3_1_0_0_1_3_11128.start (ix4 b a k d) idx 0
      + gather_S512x256x128_S512x128x8x1_S512x128x8x128_3_1_0_0_1_3_11128.batchCoord (ix4 b a k d) 0
      + gather_S512x256x128_S512x128x8x1_S512x128x8x128_3_1_0_0_1_3_11128.offCoord (ix4 b a k d) 0 = b.val := by
    rw [GatherDims.start_batching _ _ _ _ (by decide),
      GatherDims.offCoord_eq_zero _ _ _ (fun h => ((GatherDims.mem_sKept _ _).mp h).2 (by decide))]
    unfold GatherDims.batchCoord
    rw [dif_pos (by decide)]
    simp only [GatherDims.siCoord, Fin.val_cast, Nat.zero_add, Nat.add_zero]
    have hX : ∀ X : Fin 4, X = 0 → (ix4 b a k d X).val = b.val := by intro X h; subst h; rfl
    exact hX _ (by decide)
  -- the collapsed axis: the clamped start index alone
  have h1 : gather_S512x256x128_S512x128x8x1_S512x128x8x128_3_1_0_0_1_3_11128.start (ix4 b a k d) idx 1
      + gather_S512x256x128_S512x128x8x1_S512x128x8x128_3_1_0_0_1_3_11128.batchCoord (ix4 b a k d) 1
      + gather_S512x256x128_S512x128x8x1_S512x128x8x128_3_1_0_0_1_3_11128.offCoord (ix4 b a k d) 1
      = (rowOf (idx (ix4 b a k (0 : Fin 1)))).val := by
    rw [GatherDims.batchCoord_eq_zero _ _ _ (by decide),
      GatherDims.offCoord_eq_zero _ _ _ (fun h => ((GatherDims.mem_sKept _ _).mp h).1 (by decide))]
    unfold GatherDims.start
    rw [dif_pos (by decide)]
    have hsi : gather_S512x256x128_S512x128x8x1_S512x128x8x128_3_1_0_0_1_3_11128.siIdx (ix4 b a k d)
        ⟨List.idxOf (1 : Fin S512x256x128.rank) gather_S512x256x128_S512x128x8x1_S512x128x8x128_3_1_0_0_1_3_11128.startIndexMap,
          List.idxOf_lt_length_iff.2 (by decide)⟩ = ix4 b a k (0 : Fin 1) := by
      funext c; refine Fin.ext ?_
      match c with
      | ⟨0, _⟩ => rfl
      | ⟨1, _⟩ => rfl
      | ⟨2, _⟩ => rfl
      | ⟨3, _⟩ => rfl
    rw [hsi]
    rfl
  -- the offset axis: the feature coordinate alone
  have h2 : gather_S512x256x128_S512x128x8x1_S512x128x8x128_3_1_0_0_1_3_11128.start (ix4 b a k d) idx 2
      + gather_S512x256x128_S512x128x8x1_S512x128x8x128_3_1_0_0_1_3_11128.batchCoord (ix4 b a k d) 2
      + gather_S512x256x128_S512x128x8x1_S512x128x8x128_3_1_0_0_1_3_11128.offCoord (ix4 b a k d) 2 = d.val := by
    rw [GatherDims.batchCoord_eq_zero _ _ _ (by decide)]
    unfold GatherDims.start GatherDims.offCoord
    rw [dif_neg (by decide), dif_pos (by decide)]
    simp only [Nat.zero_add, Nat.add_zero]
    have hX : ∀ X : Fin 4, X = 3 → (ix4 b a k d X).val = d.val := by intro X h; subst h; rfl
    exact hX _ (by decide)
  unfold Host.gather
  congr 1
  funext e
  refine Fin.ext ?_
  match e with
  | ⟨0, _⟩ => exact h0
  | ⟨1, _⟩ => exact h1
  | ⟨2, _⟩ => exact h2

/-- The joined array at a column of the first half is the atom features. -/
theorem cat_lo (x0 : (⟨S1x512x256x128, .f32⟩ : BufTy).Contents (Elt Ideal)) (x1 : (⟨S512x128x128, .f32⟩ : BufTy).Contents (Elt Ideal))
    (x4 : (⟨S512x128x8, .i32⟩ : BufTy).Contents (Elt Ideal)) (b : Fin 512) (a : Fin 128) (c : Fin 128) :
    val_main_v9 (F := Ideal) x0 x1 x4 (ix3 b a (lo c)) = x1 (ix3 b a c) := by
  unfold val_main_v9
  exact concatenate_pair_apply_left 2 x1 _ _ (ix3 b a (lo c)) rfl (ix3 b a c) (fun e => by
    match e with
    | ⟨0, _⟩ => rfl
    | ⟨1, _⟩ => rfl
    | ⟨2, _⟩ => rfl)

/-- The joined array at a column of the second half is the summed neighbour bonds, 128 columns back. -/
theorem cat_hi (x0 : (⟨S1x512x256x128, .f32⟩ : BufTy).Contents (Elt Ideal)) (x1 : (⟨S512x128x128, .f32⟩ : BufTy).Contents (Elt Ideal))
    (x4 : (⟨S512x128x8, .i32⟩ : BufTy).Contents (Elt Ideal)) (b : Fin 512) (a : Fin 128) (d : Fin 128) :
    val_main_v9 (F := Ideal) x0 x1 x4 (ix3 b a (hi d)) = val_main_v8 (F := Ideal) x0 x4 (ix3 b a d) := by
  unfold val_main_v9
  exact concatenate_pair_apply_right (t := S512x128x256) (s₁ := S512x128x128) (s₂ := S512x128x128) 2 x1 _ _ (ix3 b a (hi d)) rfl rfl (ix3 b a d)
    (fun e he => by
      match e with
      | ⟨0, _⟩ => rfl
      | ⟨1, _⟩ => rfl
      | ⟨2, _⟩ => exact absurd rfl he)
    (by show d.val + 128 = 128 + d.val; omega)

/-- A gathered bond feature: molecule b's bond table at the row the wrapped neighbour word selects. -/
theorem nbr_apply (x0 : (⟨S1x512x256x128, .f32⟩ : BufTy).Contents (Elt Ideal)) (x4 : (⟨S512x128x8, .i32⟩ : BufTy).Contents (Elt Ideal))
    (b : Fin 512) (a : Fin 128) (k : Fin 8) (d : Fin 128) :
    val_main_v7 (F := Ideal) x0 x4 (ix4 b a k d) = x0 (ix4 (0 : Fin 1) b (rowOf (refWord (x4 (ix3 b a k)))) d) := by
  unfold val_main_v7
  rw [gather_apply, word_apply, bond_apply]

/-- The gathered bonds summed over the 8 neighbour slots are the message. -/
theorem msg_apply (x0 : (⟨S1x512x256x128, .f32⟩ : BufTy).Contents (Elt Ideal)) (x4 : (⟨S512x128x8, .i32⟩ : BufTy).Contents (Elt Ideal))
    (b : Fin 512) (a : Fin 128) (d : Fin 128) :
    val_main_v8 (F := Ideal) x0 x4 (ix3 b a d) = message (fun i => refWord (x4 i)) x0 b a d := by
  rw [val_main_v8_apply, val_main_cst_apply]
  show Ideal.ofBits .f32 0x00000000#32 + _ = _
  rw [Ideal.ofBits_zero_f32, zero_add]
  unfold message
  refine Finset.sum_congr rfl fun k _ => ?_
  have hi : idx_main_v8 (ix3 b a d) k = ix4 b a k d := by
    funext e
    match e with
    | ⟨0, _⟩ => rfl
    | ⟨1, _⟩ => rfl
    | ⟨2, _⟩ => rfl
    | ⟨3, _⟩ => rfl
  rw [hi, nbr_apply]

/-- The dense layer: the sum over the 256 weight rows splits into the atom features' half and the messages' half. -/
theorem dense_apply (x0 : (⟨S1x512x256x128, .f32⟩ : BufTy).Contents (Elt Ideal)) (x1 : (⟨S512x128x128, .f32⟩ : BufTy).Contents (Elt Ideal))
    (x2 : (⟨S256x256, .f32⟩ : BufTy).Contents (Elt Ideal)) (x4 : (⟨S512x128x8, .i32⟩ : BufTy).Contents (Elt Ideal))
    (b : Fin 512) (a : Fin 128) (h : Fin 256) :
    val_main_v10 (F := Ideal) x0 x1 x2 x4 (ix3 b a h)
      = (∑ c : Fin 128, x1 (ix3 b a c) * x2 (ix2 (lo c) h))
        + ∑ d : Fin 128, message (fun i => refWord (x4 i)) x0 b a d * x2 (ix2 (hi d) h) := by
  have hl : ∀ r : Fin 256, lidx_main_v10 (ix3 b a h) r = ix3 b a r := fun r => by
    funext e
    match e with
    | ⟨0, _⟩ => rfl
    | ⟨1, _⟩ => rfl
    | ⟨2, _⟩ => rfl
  have hr : ∀ r : Fin 256, ridx_main_v10 (ix3 b a h) r = ix2 r h := fun r => by
    funext e
    match e with
    | ⟨0, _⟩ => rfl
    | ⟨1, _⟩ => rfl
  rw [val_main_v10_apply, sum_split]
  congr 1
  · refine Finset.sum_congr rfl fun c _ => ?_
    rw [hl, hr, cat_lo]
  · refine Finset.sum_congr rfl fun d _ => ?_
    rw [hl, hr, cat_hi, msg_apply]

/-- One atom's hidden unit: the dense layer, the bias, the ramp. -/
theorem hidden_apply (x0 : (⟨S1x512x256x128, .f32⟩ : BufTy).Contents (Elt Ideal)) (x1 : (⟨S512x128x128, .f32⟩ : BufTy).Contents (Elt Ideal))
    (x2 : (⟨S256x256, .f32⟩ : BufTy).Contents (Elt Ideal)) (x3 : (⟨S256, .f32⟩ : BufTy).Contents (Elt Ideal))
    (x4 : (⟨S512x128x8, .i32⟩ : BufTy).Contents (Elt Ideal)) (b : Fin 512) (a : Fin 128) (h : Fin 256) :
    val_main_v14 (F := Ideal) x0 x1 x2 x3 x4 (ix3 b a h) = hidden (fun i => refWord (x4 i)) x0 x1 x2 x3 b a h := by
  have hb : idx_main_v11 (idx_main_v12 (ix3 b a h)) = ix1 h := by
    funext e
    match e with
    | ⟨0, _⟩ => rfl
  rw [val_main_v14_apply, val_main_v13_apply, dense_apply, val_main_v12_apply, val_main_v11_apply, hb,
    val_main_call0_v0_apply, val_main_call0_cst_apply]
  show max (_ + _) (Ideal.ofBits .f32 0x00000000#32) = _
  rw [Ideal.ofBits_zero_f32]
  rfl

/-- The reference's result is the readout at the wrapped neighbour words. -/
theorem ref_eq (x0 : (⟨S1x512x256x128, .f32⟩ : BufTy).Contents (Elt Ideal)) (x1 : (⟨S512x128x128, .f32⟩ : BufTy).Contents (Elt Ideal))
    (x2 : (⟨S256x256, .f32⟩ : BufTy).Contents (Elt Ideal)) (x3 : (⟨S256, .f32⟩ : BufTy).Contents (Elt Ideal))
    (x4 : (⟨S512x128x8, .i32⟩ : BufTy).Contents (Elt Ideal)) :
    val_main_v15 (F := Ideal) x0 x1 x2 x3 x4 = readout (fun i => refWord (x4 i)) x0 x1 x2 x3 := by
  funext i
  obtain ⟨b, h, rfl⟩ : ∃ b h, i = ix2 b h := ⟨i 0, i 1, eq_ix2 i⟩
  rw [val_main_v15_apply, val_main_cst_1_apply]
  show Ideal.ofBits .f32 0x00000000#32 + _ = _
  rw [Ideal.ofBits_zero_f32, zero_add]
  unfold readout
  refine Finset.sum_congr rfl fun a _ => ?_
  have hi : idx_main_v15 (ix2 b h) a = ix3 b a h := by
    funext e
    match e with
    | ⟨0, _⟩ => rfl
    | ⟨1, _⟩ => rfl
    | ⟨2, _⟩ => rfl
  rw [hi, hidden_apply]

end Cert.Readout.Ref
end
-- ==== Proof.KernelDots.lean ====
/-
  The kernel's two matrix products read at an index, at the ideal values: each entry is the plain sum of the products
  over the contracted axis (the accumulator is the zero matrix, and no rounding or block order is left).
    * the batched product, per molecule b of the block: (count matrix [128, 256]) x (bond rows [256, 128]);
    * the dense layer's products: ([4096, 128] rows, one per (molecule, atom)) x (a half of the weight matrix [128, 256]).
-/
import proofs.«407583_j89885075571228_3_alg».proof.KernelIdeal
import proofs.«407583_j89885075571228_3_alg».proof.Proof.Gen.KernelIdeal
import Idealize.ShloMosaic.Lib.ValueIdx
import Idealize.ShloMosaic.PureOps.Ideal.Laws

noncomputable section

namespace Cert.Readout.Kernel

open Idealize.ShloMosaic Idealize.ShloMosaic.ValueIdx Cert.KernelIdeal

/-! ## The batched product: which operand entries a result entry reads -/

theorem lhsB_0 (i : S32x128x128.Idx) (q : dot_S32x128x256_S32x256x128_S32x128x128_2_1_1_2_0_0.contr.Idx) :
    (dot_S32x128x256_S32x256x128_S32x128x128_2_1_1_2_0_0.lhsIdx i q 0).val = (i 0).val := by
  unfold DotDims.lhsIdx
  rw [dif_pos (show (0 : Fin S32x128x256.rank) ∈ dot_S32x128x256_S32x256x128_S32x128x128_2_1_1_2_0_0.lhsBatch by decide)]
  rfl
theorem lhsB_1 (i : S32x128x128.Idx) (q : dot_S32x128x256_S32x256x128_S32x128x128_2_1_1_2_0_0.contr.Idx) :
    (dot_S32x128x256_S32x256x128_S32x128x128_2_1_1_2_0_0.lhsIdx i q 1).val = (i 1).val := by
  unfold DotDims.lhsIdx
  rw [dif_neg (show ¬(1 : Fin S32x128x256.rank) ∈ dot_S32x128x256_S32x256x128_S32x128x128_2_1_1_2_0_0.lhsBatch by decide),
    dif_pos (show (1 : Fin S32x128x256.rank) ∈ dot_S32x128x256_S32x256x128_S32x128x128_2_1_1_2_0_0.lhsNonContracting by decide)]
  rfl
theorem lhsB_2 (i : S32x128x128.Idx) (q : dot_S32x128x256_S32x256x128_S32x128x128_2_1_1_2_0_0.contr.Idx) :
    (dot_S32x128x256_S32x256x128_S32x128x128_2_1_1_2_0_0.lhsIdx i q 2).val = (q ⟨0, by decide⟩).val :=
  dot_S32x128x256_S32x256x128_S32x128x128_2_1_1_2_0_0.lhsIdx_val_of_single rfl i q
theorem rhsB_0 (i : S32x128x128.Idx) (q : dot_S32x128x256_S32x256x128_S32x128x128_2_1_1_2_0_0.contr.Idx) :
    (dot_S32x128x256_S32x256x128_S32x128x128_2_1_1_2_0_0.rhsIdx i q 0).val = (i 0).val := by
  unfold DotDims.rhsIdx
  rw [dif_pos (show (0 : Fin S32x256x128.rank) ∈ dot_S32x128x256_S32x256x128_S32x128x128_2_1_1_2_0_0.rhsBatch by decide)]
  rfl
theorem rhsB_1 (i : S32x128x128.Idx) (q : dot_S32x128x256_S32x256x128_S32x128x128_2_1_1_2_0_0.contr.Idx) :
    (dot_S32x128x256_S32x256x128_S32x128x128_2_1_1_2_0_0.rhsIdx i q 1).val = (q ⟨0, by decide⟩).val :=
  dot_S32x128x256_S32x256x128_S32x128x128_2_1_1_2_0_0.rhsIdx_val_of_single rfl i q
theorem rhsB_2 (i : S32x128x128.Idx) (q : dot_S32x128x256_S32x256x128_S32x128x128_2_1_1_2_0_0.contr.Idx) :
    (dot_S32x128x256_S32x256x128_S32x128x128_2_1_1_2_0_0.rhsIdx i q 2).val = (i 2).val := by
  unfold DotDims.rhsIdx
  rw [dif_neg (show ¬(2 : Fin S32x256x128.rank) ∈ dot_S32x128x256_S32x256x128_S32x128x128_2_1_1_2_0_0.rhsBatch by decide),
    dif_pos (show (2 : Fin S32x256x128.rank) ∈ dot_S32x128x256_S32x256x128_S32x128x128_2_1_1_2_0_0.rhsNonContracting by decide)]
  rfl

/-- Entry (b, a, d) of the batched product into a zero accumulator: the sum over the 256 bond rows n of
    left[b, a, n] * right[b, n, d]. -/
theorem batched_apply {φ₁ φ₂ : FTy} (l : FVec Ideal S32x128x256 φ₁) (r : FVec Ideal S32x256x128 φ₂) (b : Fin 32) (a : Fin 128) (d : Fin 128) :
    matmul dot_S32x128x256_S32x256x128_S32x128x128_2_1_1_2_0_0 none l r (constant S32x128x128 .f32 0x00000000#32) (ix3 b a d)
      = ∑ n : Fin 256, l (ix3 b a n) * r (ix3 b n d) := by
  simp only [matmul]
  rw [Ideal.matmul_constant_zero_apply, ← Equiv.sum_comp (contrEquiv1 dot_S32x128x256_S32x256x128_S32x128x128_2_1_1_2_0_0 256 rfl rfl).symm]
  refine Finset.sum_congr rfl fun k _ => ?_
  have hk := contrEquiv1_symm_val dot_S32x128x256_S32x256x128_S32x128x128_2_1_1_2_0_0 256 rfl rfl k
  have el : dot_S32x128x256_S32x256x128_S32x128x128_2_1_1_2_0_0.lhsIdx (ix3 b a d) ((contrEquiv1 dot_S32x128x256_S32x256x128_S32x128x128_2_1_1_2_0_0 256 rfl rfl).symm k) = ix3 b a k := funext fun x => Fin.ext (by
    match x with
    | ⟨0, _⟩ => exact lhsB_0 _ _
    | ⟨1, _⟩ => exact lhsB_1 _ _
    | ⟨2, _⟩ => exact (lhsB_2 _ _).trans hk)
  have er : dot_S32x128x256_S32x256x128_S32x128x128_2_1_1_2_0_0.rhsIdx (ix3 b a d) ((contrEquiv1 dot_S32x128x256_S32x256x128_S32x128x128_2_1_1_2_0_0 256 rfl rfl).symm k) = ix3 b k d := funext fun x => Fin.ext (by
    match x with
    | ⟨0, _⟩ => exact rhsB_0 _ _
    | ⟨1, _⟩ => exact (rhsB_1 _ _).trans hk
    | ⟨2, _⟩ => exact rhsB_2 _ _)
  rw [el, er]

/-! ## The dense layer's product -/

theorem lhsD_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide),
    dif_pos (show (0 : Fin S4096x128.rank) ∈ dot_S4096x128_S128x256_S4096x256_1_0_0_1_n_n.lhsNonContracting by decide)]
  rfl
theorem lhsD_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
theorem rhsD_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
theorem rhsD_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide),
    dif_pos (show (1 : Fin S128x256.rank) ∈ dot_S4096x128_S128x256_S4096x256_1_0_0_1_n_n.rhsNonContracting by decide)]
  rfl

/-- Entry (p, h) of the dense product into a zero accumulator: the sum over the 128 features c of left[p, c] * right[c, h]. -/
theorem dense_apply {φ₁ φ₂ : FTy} (l : FVec Ideal S4096x128 φ₁) (r : FVec Ideal S128x256 φ₂) (p : Fin 4096) (h : Fin 256) :
    matmul dot_S4096x128_S128x256_S4096x256_1_0_0_1_n_n none l r (constant S4096x256 .f32 0x00000000#32) (ix2 p h)
      = ∑ c : Fin 128, l (ix2 p c) * r (ix2 c h) := by
  simp only [matmul]
  rw [Ideal.matmul_constant_zero_apply, ← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 p h) ((contrEquiv1 dot_S4096x128_S128x256_S4096x256_1_0_0_1_n_n 128 rfl rfl).symm k) = ix2 p k := funext fun x => Fin.ext (by
    match x with
    | ⟨0, _⟩ => exact lhsD_0 _ _
    | ⟨1, _⟩ => exact (lhsD_1 _ _).trans hk)
  have er : dot_S4096x128_S128x256_S4096x256_1_0_0_1_n_n.rhsIdx (ix2 p h) ((contrEquiv1 dot_S4096x128_S128x256_S4096x256_1_0_0_1_n_n 128 rfl rfl).symm k) = ix2 k h := funext fun x => Fin.ext (by
    match x with
    | ⟨0, _⟩ => exact (rhsD_0 _ _).trans hk
    | ⟨1, _⟩ => exact rhsD_1 _ _)
  rw [el, er]

end Cert.Readout.Kernel

end
-- ==== Proof.KernelCount.lean ====
/-
  The count matrix and the message block.

  For a molecule r of the block, an atom a and a bond row n, the kernel compares the row number n with the word of each
  of the atom's 8 neighbour slots (both turned into reals first), turns each comparison into 0 or 1, and adds the eight
  up: count r a n = how many slots select row n. The messages are the batched product of that count matrix with the
  block's bond rows, so message r a d = sum over rows n of count r a n * bond r n d = the sum of the eight selected rows
  (`onehot_rows`), for words in [0, 255].
-/
import proofs.«407583_j89885075571228_3_alg».proof.Proof.Gen.KernelIdeal.Skeleton
import proofs.«407583_j89885075571228_3_alg».proof.Proof.Spec
import proofs.«407583_j89885075571228_3_alg».proof.Proof.KernelDots
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.Readout.Kernel

open Idealize.ShloMosaic Idealize.ShloMosaic.ValueIdx Cert.KernelIdeal Cert.KernelIdeal.Gen Cert.Readout

/-- The bf16 zero word is the extended real 0. -/
theorem ofBits_zero_bf16 : Ideal.ofBits .bf16 0x0000#16 = 0 := by simp [Ideal.ofBits, Ideal.ieee]

/-- The row numbers, one per bond row, broadcast over molecules and atoms: entry (r, a, n) is entry n. -/
theorem bcast_rows (v3 : FVec Ideal S1x1x256 .bf16) (hb3 : S1x1x256.Broadcasts S32x128x256) (r : Fin 32) (a : Fin 128) (n : Fin 256) :
    broadcastTo S32x128x256 v3 hb3 (ix3 r a n) = v3 (ix3 0 0 n) :=
  broadcastTo_apply v3 hb3 (ix3 r a n) (ix3 0 0 n) (fun x => by
    match x with
    | ⟨0, _⟩ => rfl
    | ⟨1, _⟩ => rfl
    | ⟨2, _⟩ => rfl)

/-- Slot k of the neighbour words (a [32, 1, 128] slice), re-laid as a column and broadcast over the bond rows:
    entry (r, a, n) is the word of molecule r, slot k, atom a. -/
theorem bcast_word (v4 : FVec Ideal S32x8x128 .bf16) (off : Fin 3 → Nat) (k : Fin 8)
    (hoff : off = ![0, k.val, 0]) (hs : S32x8x128.Slices off S32x1x128)
    (h1 : S32x1x128.ShapeCasts S32x128) (h2 : S32x128.ShapeCasts S32x128x1)
    (hb2 : S32x128x1.Broadcasts S32x128x256) (r : Fin 32) (a : Fin 128) (n : Fin 256) :
    broadcastTo S32x128x256 (shapeCast S32x128x1 (shapeCast S32x128 (extractStridedSlice S32x1x128 off v4 hs) h1) h2) hb2 (ix3 r a n)
      = v4 (ix3 r k a) := by
  subst hoff
  refine (broadcastTo_apply _ hb2 (ix3 r a n) (ix3 r a 0) (fun x => by
    match x with
    | ⟨0, _⟩ => rfl
    | ⟨1, _⟩ => rfl
    | ⟨2, _⟩ => rfl)).trans ?_
  refine (shapeCast_apply _ h2 (ix3 r a 0) (ix2 r a) (by
    rw [Shape.rowMajor_val_two, Shape.rowMajor_val_three]; show r.val * 128 + a.val = (r.val * 128 + a.val) * 1 + 0; omega)).trans ?_
  refine (shapeCast_apply _ h1 (ix2 r a) (ix3 r 0 a) (by
    rw [Shape.rowMajor_val_two, Shape.rowMajor_val_three]; show (r.val * 1 + 0) * 128 + a.val = r.val * 128 + a.val; omega)).trans ?_
  exact extractStridedSlice_apply _ v4 hs (ix3 r 0 a) (ix3 r k a) (fun x => by
    match x with
    | ⟨0, _⟩ => show r.val = 0 + r.val; omega
    | ⟨1, _⟩ => show k.val = k.val + 0; omega
    | ⟨2, _⟩ => show a.val = 0 + a.val; omega)

/-- One comparison's entry of the count: the comparison of row number and word, widened and read back as a real. -/
theorem entry (v3 : FVec Ideal S1x1x256 .bf16) (v4 : FVec Ideal S32x8x128 .bf16) (off : Fin 3 → Nat) (k : Fin 8)
    (hoff : off = ![0, k.val, 0]) (hs : S32x8x128.Slices off S32x1x128)
    (h1 : S32x1x128.ShapeCasts S32x128) (h2 : S32x128.ShapeCasts S32x128x1)
    (hb3 : S1x1x256.Broadcasts S32x128x256) (hb2 : S32x128x1.Broadcasts S32x128x256)
    (hlt : 1 < 32) (r : Fin 32) (a : Fin 128) (n : Fin 256) :
    (sitofp .f32 (extui 32 (cmpf .oeq (broadcastTo S32x128x256 v3 hb3)
        (broadcastTo S32x128x256 (shapeCast S32x128x1 (shapeCast S32x128 (extractStridedSlice S32x1x128 off v4 hs) h1) h2) hb2)) hlt)
        : FVec Ideal S32x128x256 .f32) (ix3 r a n)
      = ((((Ideal.cmp .oeq (v3 (ix3 0 0 n)) (v4 (ix3 r k a))).setWidth 32).toInt : ℝ) : EReal) := by
  show ((((FloatOps.cmpf .oeq (broadcastTo S32x128x256 v3 hb3 (ix3 r a n))
      (broadcastTo S32x128x256 (shapeCast S32x128x1 (shapeCast S32x128 (extractStridedSlice S32x1x128 off v4 hs) h1) h2) hb2 (ix3 r a n))).setWidth 32).toInt : ℝ) : EReal) = _
  rw [bcast_rows, bcast_word v4 off k hoff]
  rfl

/-- The row numbers as reals. -/
theorem row_number (n : Fin 256) : k0_pay2 (F := Ideal) (ix3 0 0 n) = (((BitVec.ofNat 32 n.val).toInt : ℝ) : EReal) := by
  unfold k0_pay2
  show (((iota .tc S1x1x256 32 [2] _ (ix3 0 0 n)).toInt : ℝ) : EReal) = _
  rw [iota_single_apply]

/-- The neighbour words as reals. -/
theorem word_real (v0 : Vec Ideal S32x8x128 .i32) (i : S32x8x128.Idx) : k0_pay3 (F := Ideal) v0 i = (((v0 i).toInt : ℝ) : EReal) := by
  unfold k0_pay3
  show (((shapeCast S32x8x128 v0 _ i).toInt : ℝ) : EReal) = _
  rw [shapeCast_self]

/-- For a word in [0, 255], a comparison's entry is 1 at the row the word selects and 0 elsewhere. -/
theorem entry_hit (v0 : Vec Ideal S32x8x128 .i32) (hv : ∀ i, 0 ≤ (v0 i).toInt ∧ (v0 i).toInt ≤ 255) (off : Fin 3 → Nat) (k : Fin 8)
    (hoff : off = ![0, k.val, 0]) (hs : S32x8x128.Slices off S32x1x128)
    (h1 : S32x1x128.ShapeCasts S32x128) (h2 : S32x128.ShapeCasts S32x128x1)
    (hb3 : S1x1x256.Broadcasts S32x128x256) (hb2 : S32x128x1.Broadcasts S32x128x256)
    (hlt : 1 < 32) (r : Fin 32) (a : Fin 128) (n : Fin 256) :
    (sitofp .f32 (extui 32 (cmpf .oeq (broadcastTo S32x128x256 (k0_pay2 (F := Ideal)) hb3)
        (broadcastTo S32x128x256 (shapeCast S32x128x1 (shapeCast S32x128 (extractStridedSlice S32x1x128 off (k0_pay3 (F := Ideal) v0) hs) h1) h2) hb2)) hlt)
        : FVec Ideal S32x128x256 .f32) (ix3 r a n)
      = hit (v0 (ix3 r k a)) n := by
  rw [entry _ _ off k hoff, row_number, word_real]
  exact cmp_hit n _ _ (hv _) (StableHlo.Predicate.toInt_ofNat_small n.val (by have := n.isLt; omega))

/-- The count after the first four comparisons. -/
theorem pay4_apply (v0 : Vec Ideal S32x8x128 .i32) (hv : ∀ i, 0 ≤ (v0 i).toInt ∧ (v0 i).toInt ≤ 255) (r : Fin 32) (a : Fin 128) (n : Fin 256) :
    k0_pay4 (F := Ideal) v0 (ix3 r a n)
      = (((0 + hit (v0 (ix3 r 0 a)) n) + hit (v0 (ix3 r 1 a)) n) + hit (v0 (ix3 r 2 a)) n) + hit (v0 (ix3 r 3 a)) n := by
  unfold k0_pay4
  simp only [addf_apply, broadcast_apply, truncf_apply]
  rw [entry_hit v0 hv ![0, 0, 0] 0 rfl, entry_hit v0 hv ![0, 1, 0] 1 rfl, entry_hit v0 hv ![0, 2, 0] 2 rfl,
    entry_hit v0 hv ![0, 3, 0] 3 rfl]
  show (((Ideal.ofBits .bf16 0x0000#16 + _) + _) + _) + _ = _
  rw [ofBits_zero_bf16]

/-- The fifth comparison. -/
theorem pay5_apply (v0 : Vec Ideal S32x8x128 .i32) (hv : ∀ i, 0 ≤ (v0 i).toInt ∧ (v0 i).toInt ≤ 255) (r : Fin 32) (a : Fin 128) (n : Fin 256) :
    k0_pay5 (F := Ideal) v0 (ix3 r a n) = hit (v0 (ix3 r 4 a)) n := by
  unfold k0_pay5
  simp only [truncf_apply]
  exact entry_hit v0 hv ![0, 4, 0] 4 rfl _ _ _ _ _ _ r a n

/-- The message block, re-laid as one row per (molecule, atom): row p = 128 r + a, feature d, is the sum of the bond
    feature d over the eight rows the atom's neighbour words select. -/
theorem msg_apply (v0 : Vec Ideal S32x8x128 .i32) (x0 : Vec Ideal S32x256x128 .f32)
    (hv : ∀ i, 0 ≤ (v0 i).toInt ∧ (v0 i).toInt ≤ 255) (r : Fin 32) (a : Fin 128) (d : Fin 128) (p : Fin 4096)
    (hp : p.val = r.val * 128 + a.val) :
    k0_pay7 (F := Ideal) (k0_pay2 (F := Ideal)) (k0_pay3 v0) (k0_pay4 v0) (k0_pay5 v0) x0 (ix2 p d)
      = ∑ k : Fin 8, x0 (ix3 r (rowOf (v0 (ix3 r k a))) d) := by
  unfold k0_pay7
  refine (shapeCast_apply _ _ (ix2 p d) (ix3 r a d) (by
    rw [Shape.rowMajor_val_two, Shape.rowMajor_val_three]; show (r.val * 128 + a.val) * 128 + d.val = p.val * 128 + d.val; omega)).trans ?_
  rw [truncf_apply, batched_apply]
  refine (Finset.sum_congr rfl fun n _ => ?_).trans (onehot_rows (fun k => v0 (ix3 r k a)) (fun n => x0 (ix3 r n d)))
  simp only [addf_apply, truncf_apply, shapeCast_self]
  rw [pay4_apply v0 hv, pay5_apply v0 hv, entry_hit v0 hv ![0, 5, 0] 5 rfl, entry_hit v0 hv ![0, 6, 0] 6 rfl,
    entry_hit v0 hv ![0, 7, 0] 7 rfl]

end Cert.Readout.Kernel

end
-- ==== Proof.KernelBlock.lean ====
/-
  The kernel body's result for one block of 32 molecules, read at an index.

  The body forms, for the block's 4096 (molecule, atom) rows p = 128 r + a: the atom features times the upper half of
  the weight matrix, plus the messages times its lower half, plus the bias; the ramp of that; and sums the result over
  the 128 atoms of each molecule.
-/
import proofs.«407583_j89885075571228_3_alg».proof.Proof.Gen.KernelIdeal.Frame
import proofs.«407583_j89885075571228_3_alg».proof.Proof.Spec
import proofs.«407583_j89885075571228_3_alg».proof.Proof.KernelDots
import proofs.«407583_j89885075571228_3_alg».proof.Proof.KernelCount
import Idealize.ShloMosaic.Lib.ValueIdx
import Idealize.ShloMosaic.Lib.ValueLayout
import Idealize.ShloMosaic.Lib.Pipeline.Value
import Idealize.ShloMosaic.PureOps.Ideal.Laws

noncomputable section

namespace Cert.Readout.Kernel

open Idealize.ShloMosaic Idealize.ShloMosaic.ValueIdx Cert.KernelIdeal Cert.KernelIdeal.Gen Cert.Readout

/-- The row of the block's [4096, ·] matrices that holds molecule r, atom a. -/
def rowIx (r : Fin 32) (a : Fin 128) : Fin 4096 := ⟨r.val * 128 + a.val, by omega⟩

theorem zeros3 : (![0, 0, 0] : Fin 3 → Nat) = fun _ => 0 := by funext a; fin_cases a <;> rfl
theorem zeros2 : (![0, 0] : Fin 2 → Nat) = fun _ => 0 := by funext a; fin_cases a <;> rfl
theorem zeros1 : (![0] : Fin 1 → Nat) = fun _ => 0 := by funext a; fin_cases a; rfl

/-- The lower half of the weight matrix as the body uses it: unchanged. -/
theorem pay6_apply (v96 : Vec Ideal S128x256 .f32) (i : S128x256.Idx) : k0_pay6 (F := Ideal) v96 i = v96 i := by
  unfold k0_pay6
  show shapeCast S128x256 v96 _ i = _
  rw [shapeCast_self]

/-- The atom features against the upper half of the weight matrix: row (r, a), hidden unit h. -/
theorem atom_apply (v91 : Vec Ideal S32x128x128 .f32) (v93 : Vec Ideal S128x256 .f32) (r : Fin 32) (a : Fin 128) (h : Fin 256) :
    k0_pay8 (F := Ideal) v91 v93 (ix2 (rowIx r a) h) = ∑ c : Fin 128, v91 (ix3 r a c) * v93 (ix2 c h) := by
  unfold k0_pay8
  rw [dense_apply]
  refine Finset.sum_congr rfl fun c _ => ?_
  congr 1
  · refine (shapeCast_apply _ _ (ix2 (rowIx r a) c) (ix3 r a c) (by
      rw [Shape.rowMajor_val_two, Shape.rowMajor_val_three]
      show (r.val * 128 + a.val) * 128 + c.val = (r.val * 128 + a.val) * 128 + c.val; rfl)).trans ?_
    rfl
  · show shapeCast S128x256 v93 _ (ix2 c h) = _
    rw [shapeCast_self]

/-- The bias, laid out as a row and broadcast over the 4096 rows: entry (p, h) is bias h. -/
theorem bias_apply (v104 : Vec Ideal S256 .f32) (h1 : S256.ShapeCasts S1x256) (hb : S1x256.Broadcasts S4096x256)
    (p : Fin 4096) (h : Fin 256) :
    broadcastTo S4096x256 (shapeCast S1x256 v104 h1) hb (ix2 p h) = v104 (ix1 h) := by
  refine (broadcastTo_apply _ hb (ix2 p h) (ix2 0 h) (fun x => by
    match x with
    | ⟨0, _⟩ => rfl
    | ⟨1, _⟩ => rfl)).trans ?_
  exact shapeCast_apply _ h1 (ix2 0 h) (ix1 h) (by
    rw [Shape.rowMajor_val_one, Shape.rowMajor_val_two]; show h.val = 0 * 256 + h.val; omega)

/-- The last payload: from the two products' operands, the hidden units summed over a molecule's atoms. -/
theorem pay1_apply (v98 : FVec Ideal S128x256 .bf16) (v100 : FVec Ideal S4096x128 .bf16) (v101 : FVec Ideal S4096x256 .f32)
    (v104 : Vec Ideal S256 .f32) (r : Fin 32) (h : Fin 256) :
    k0_pay1 (F := Ideal) v98 v100 v101 (constant S4096x256 .f32 0x00000000#32) v104 (ix2 r h)
      = ∑ a : Fin 128, max ((v101 (ix2 (rowIx r a) h) + ∑ d : Fin 128, v100 (ix2 (rowIx r a) d) * v98 (ix2 d h)) + v104 (ix1 h)) 0 := by
  unfold k0_pay1
  refine (Ideal.multiReduction_add_single _ 0x00000000#32 reduces_S32x128x256_S32x256 _ _ (ix2 r h)).trans ?_
  refine Finset.sum_congr rfl fun a _ => ?_
  have hl : reduces_S32x128x256_S32x256.lift (ix2 r h) a = ix3 r a h := funext fun x => Fin.ext (by
    match x with
    | ⟨0, _⟩ => rfl
    | ⟨1, _⟩ => rfl
    | ⟨2, _⟩ => rfl)
  rw [hl]
  refine (shapeCast_apply _ _ (ix3 r a h) (ix2 (rowIx r a) h) (by
    rw [Shape.rowMajor_val_two, Shape.rowMajor_val_three]
    show (r.val * 128 + a.val) * 256 + h.val = (r.val * 128 + a.val) * 256 + h.val; rfl)).trans ?_
  simp only [maximumf_apply, addf_apply, broadcast_apply]
  rw [bias_apply, dense_apply]
  show max _ (Ideal.ofBits .f32 0x00000000#32) = _
  rw [Ideal.ofBits_zero_f32]

/-- What the body leaves in the output block, at row r (a molecule of the block) and hidden unit h: the readout of that
    molecule from the blocks of bond features `x0`, atom features `x1`, neighbour words `x2` (laid out slot-major, each
    in [0, 255]), the two halves `x3`, `x4` of the weight matrix and the bias `x5`. -/
theorem block_apply (x0 : Vec Ideal S32x256x128 .f32) (x1 : Vec Ideal S32x128x128 .f32) (x2 : Vec Ideal S32x8x128 .i32)
    (x3 : Vec Ideal S128x256 .f32) (x4 : Vec Ideal S128x256 .f32) (x5 : Vec Ideal S256 .f32)
    (hx2 : ∀ i, 0 ≤ (x2 i).toInt ∧ (x2 i).toInt ≤ 255) (r : Fin 32) (h : Fin 256) :
    out0_6 (F := Ideal) x0 x1 x2 x3 x4 x5 (ix2 r h)
      = ∑ a : Fin 128, max ((∑ c : Fin 128, x1 (ix3 r a c) * x3 (ix2 c h))
          + (∑ d : Fin 128, (∑ k : Fin 8, x0 (ix3 r (rowOf (x2 (ix3 r k a))) d)) * x4 (ix2 d h)) + x5 (ix1 h)) 0 := by
  unfold out0_6
  rw [View.canon_unit_zero zeros2]
  simp only [View.ld_unit_zero (S := S32x8x128) zeros3, View.ld_unit_zero (S := S32x256x128) zeros3,
    View.ld_unit_zero (S := S32x128x128) zeros3, View.ld_unit_zero (S := S128x256) zeros2, View.ld_unit_zero (S := S256) zeros1]
  rw [pay1_apply]
  refine Finset.sum_congr rfl fun a _ => ?_
  rw [atom_apply]
  congr 3
  refine Finset.sum_congr rfl fun d _ => ?_
  rw [msg_apply x2 x0 hx2 r a d (rowIx r a) rfl, pay6_apply]

end Cert.Readout.Kernel

end
-- ==== Proof.KernelArray.lean ====
/-
  The kernel from its blocks to the whole output array.

  The kernel runs over a grid of 16 points. Point t reads molecules 32·t … 32·t + 31 of the bond features, the atom
  features and the neighbour words, the two halves of the weight matrix and the bias whole, and writes rows
  32·t … 32·t + 31 of the output [512, 256]. One block's result is the readout of its 32 molecules (`block_apply`).

  Four of the arrays the windows read are written before the region from the arguments: the bond features with their
  leading unit axis dropped, the weight matrix cut into rows 0 … 127 and rows 128 … 255, and the neighbour words clipped
  into [0, 255] and transposed to slot-major order. Each is read at an index as the argument at the matching index
  (`V_bond_apply`, `V_wlo_apply`, `V_whi_apply`, `V_words_apply`), and each window's block at point t as its array
  at molecule 32·t + r (`blk_bond` … `blk_bias`). So what point t writes back is block t of ONE function of the
  arguments, the readout at the clipped words (`flushed_eq`); the 16 blocks cover the output, row b lying in the block
  of point b / 32 (`cover`); hence the array after the run is that readout (`final`, `run`).
-/
import proofs.«407583_j89885075571228_3_alg».proof.Proof.Gen.KernelIdeal.Value
import proofs.«407583_j89885075571228_3_alg».proof.Proof.KernelBlock
import proofs.«407583_j89885075571228_3_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.Readout.Kernel

open Idealize.ShloMosaic Idealize.ShloMosaic.ValueIdx Idealize.ShloMosaic.TcCoe Idealize.SL.Sem
open Cert.KernelIdeal Cert.KernelIdeal.Gen Cert.Readout

variable (m : (ℓ : Loc nD τ sig) → Buf (Elt Ideal) ℓ) (ρ : Dev nD → PrngReg)

/-! ## A clipped word lies in [0, 255] -/

/-- A word clipped into [0, 255] as signed integers lies there. -/
theorem clip_range (v : BitVec 32) : 0 ≤ (clipWord v).toInt ∧ (clipWord v).toInt ≤ 255 := by
  unfold clipWord IntOp.minsi IntOp.maxsi
  have h255 : (255#32 : BitVec 32).toInt = 255 := by decide
  have h0 : (0#32 : BitVec 32).toInt = 0 := by decide
  split <;> split <;> simp only [BitVec.slt_iff_toInt_lt, h255, h0] at * <;> omega

/-! ## The arrays the host writes before the region, read at an index -/

/-- The bond features the region finds: the argument with its leading unit axis dropped. -/
theorem V_bond (c : Dev nD) : (V m c main_v0 : S512x256x128.Idx → EReal)
    = shapeCast S512x256x128 (m ((c : Thread nD τ).loc main_arg0)) shapeCasts_S1x512x256x128_S512x256x128 := by
  dsimp only [Gen.V]
  simp only [Gen.hostOps0, Gen.hostOps0_1, Gen.hostOps0_2, List.flatten_cons, List.flatten_nil, List.append_nil,
    List.cons_append, List.nil_append]
  after_results
  rfl

/-- The upper half of the weight matrix the region finds: rows 0 … 127 of the argument. -/
theorem V_wlo (c : Dev nD) : (V m c main_v1 : S128x256.Idx → EReal)
    = extractStridedSlice S128x256 ![0, 0] (m ((c : Thread nD τ).loc main_arg2)) slices_S256x256_S128x256_0_0 := by
  dsimp only [Gen.V]
  simp only [Gen.hostOps0, Gen.hostOps0_1, Gen.hostOps0_2, List.flatten_cons, List.flatten_nil, List.append_nil,
    List.cons_append, List.nil_append]
  after_results

/-- The lower half of the weight matrix the region finds: rows 128 … 255 of the argument. -/
theorem V_whi (c : Dev nD) : (V m c main_v2 : S128x256.Idx → EReal)
    = extractStridedSlice S128x256 ![128, 0] (m ((c : Thread nD τ).loc main_arg2)) slices_S256x256_S128x256_128_0 := by
  dsimp only [Gen.V]
  simp only [Gen.hostOps0, Gen.hostOps0_1, Gen.hostOps0_2, List.flatten_cons, List.flatten_nil, List.append_nil,
    List.cons_append, List.nil_append]
  after_results

/-- The neighbour words the region finds: the argument's words clipped into [0, 255], laid out slot-major. -/
theorem V_words (c : Dev nD) : (V m c main_v4 : S512x8x128.Idx → BitVec 32)
    = transpose S512x8x128 [0, 2, 1] (fun i => clipWord (m ((c : Thread nD τ).loc main_arg4) i) : S512x128x8.Idx → BitVec 32)
        transposes_S512x128x8_S512x8x128_0_2_1 := by
  dsimp only [Gen.V]
  simp only [Gen.hostOps0, Gen.hostOps0_1, Gen.hostOps0_2, List.flatten_cons, List.flatten_nil, List.append_nil,
    List.cons_append, List.nil_append]
  after_results
  rfl

/-- Bond feature (b, n, d) of the region's array is feature (0, b, n, d) of the argument. -/
theorem V_bond_apply (c : Dev nD) (b : Fin 512) (n : Fin 256) (d : Fin 128) :
    (V m c main_v0 : S512x256x128.Idx → EReal) (ix3 b n d) = m ((c : Thread nD τ).loc main_arg0) (ix4 (0 : Fin 1) b n d) := by
  rw [V_bond]
  exact shapeCast_1abc_abc_apply _ _ b n d

/-- Row c of the upper half is row `lo c` of the weight matrix. -/
theorem V_wlo_apply (c : Dev nD) (cc : Fin 128) (h : Fin 256) :
    (V m c main_v1 : S128x256.Idx → EReal) (ix2 cc h) = m ((c : Thread nD τ).loc main_arg2) (ix2 (lo cc) h) := by
  rw [V_wlo]
  exact slice2_axis0_apply 0 _ _ cc h (lo cc) (by show cc.val = 0 + cc.val; omega)

/-- Row d of the lower half is row `hi d` of the weight matrix. -/
theorem V_whi_apply (c : Dev nD) (d : Fin 128) (h : Fin 256) :
    (V m c main_v2 : S128x256.Idx → EReal) (ix2 d h) = m ((c : Thread nD τ).loc main_arg2) (ix2 (hi d) h) := by
  rw [V_whi]
  exact slice2_axis0_apply 128 _ _ d h (hi d) rfl

/-- Word (b, k, a) of the region's array is the argument's word (b, a, k), clipped. -/
theorem V_words_apply (c : Dev nD) (b : Fin 512) (k : Fin 8) (a : Fin 128) :
    (V m c main_v4 : S512x8x128.Idx → BitVec 32) (ix3 b k a) = clipWord (m ((c : Thread nD τ).loc main_arg4) (ix3 b a k)) := by
  rw [V_words]
  exact transpose_ix3_021_apply _ _ b k a

/-! ## Where each window's block sits at a grid point -/

/-- The windows' index maps over the grid: the three windows of per-molecule arrays and the output move with the point
    along the molecules' axis and stay at 0 on every other axis; the weight halves and the bias are whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Molecule 32·t + r, for a point t of the grid and a row r of a block. -/
def mol (t : Fin cfg0.N) (r : Fin 32) : Fin 512 :=
  ⟨32 * t.val + r.val, by have := t.isLt; have hN : cfg0.N = 16 := N_0; have := r.isLt; omega⟩

/-- The bond block at point t, row r, is molecule 32·t + r's rows of the region's array. -/
theorem blk_bond (c : Dev nD) (t : Fin cfg0.N) (r : Fin 32) (n : Fin 256) (d : Fin 128) :
    (iblk m c 0 t : Vec Ideal S32x256x128 .f32) (ix3 r n d) = (V m c main_v0 : S512x256x128.Idx → EReal) (ix3 (mol t r) n d) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 32 + 1 * r.val = 32 * t.val + r.val; rw [e0]; omega
  | ⟨1, _⟩ => show win0_0.index t (1 : Fin 3) * 256 + 1 * n.val = n.val; rw [e1]; omega
  | ⟨2, _⟩ => show win0_0.index t (2 : Fin 3) * 128 + 1 * d.val = d.val; rw [e2]; omega

/-- The atom block at point t, row r, is molecule 32·t + r's rows of the atom features. -/
theorem blk_atom (c : Dev nD) (t : Fin cfg0.N) (r : Fin 32) (a : Fin 128) (cc : Fin 128) :
    (iblk m c 1 t : Vec Ideal S32x128x128 .f32) (ix3 r a cc) = m ((c : Thread nD τ).loc main_arg1) (ix3 (mol t r) a cc) := by
  obtain ⟨-, -, -, e0, e1, e2, -⟩ := idx_facts t
  rw [← V_main_arg1 m c]
  unfold iblk
  rw [View.read_apply]
  show V m c main_arg1 _ = V m c main_arg1 _
  congr 1
  funext x
  apply Fin.ext
  match x with
  | ⟨0, _⟩ => show win0_1.index t (0 : Fin 3) * 32 + 1 * r.val = 32 * t.val + r.val; rw [e0]; omega
  | ⟨1, _⟩ => show win0_1.index t (1 : Fin 3) * 128 + 1 * a.val = a.val; rw [e1]; omega
  | ⟨2, _⟩ => show win0_1.index t (2 : Fin 3) * 128 + 1 * cc.val = cc.val; rw [e2]; omega

/-- The word block at point t, row r, is molecule 32·t + r's words of the region's array. -/
theorem blk_words (c : Dev nD) (t : Fin cfg0.N) (r : Fin 32) (k : Fin 8) (a : Fin 128) :
    (iblk m c 2 t : Vec Ideal S32x8x128 .i32) (ix3 r k a) = (V m c main_v4 : S512x8x128.Idx → BitVec 32) (ix3 (mol t r) k a) := by
  obtain ⟨-, -, -, -, -, -, e0, e1, e2, -⟩ := idx_facts t
  unfold iblk
  rw [View.read_apply]
  show V m c main_v4 _ = V m c main_v4 _
  congr 1
  funext x
  apply Fin.ext
  match x with
  | ⟨0, _⟩ => show win0_2.index t (0 : Fin 3) * 32 + 1 * r.val = 32 * t.val + r.val; rw [e0]; omega
  | ⟨1, _⟩ => show win0_2.index t (1 : Fin 3) * 8 + 1 * k.val = k.val; rw [e1]; omega
  | ⟨2, _⟩ => show win0_2.index t (2 : Fin 3) * 128 + 1 * a.val = a.val; rw [e2]; omega

/-- The upper weight half's block is the whole array at every point. -/
theorem blk_wlo (c : Dev nD) (t : Fin cfg0.N) (cc : Fin 128) (h : Fin 256) :
    (iblk m c 3 t : Vec Ideal S128x256 .f32) (ix2 cc h) = (V m c main_v1 : S128x256.Idx → EReal) (ix2 cc h) := by
  obtain ⟨-, -, -, -, -, -, -, -, -, e0, e1, -⟩ := idx_facts t
  unfold iblk
  rw [View.read_apply]
  show V m c main_v1 _ = V m c main_v1 _
  congr 1
  funext x
  apply Fin.ext
  match x with
  | ⟨0, _⟩ => show win0_3.index t (0 : Fin 2) * 128 + 1 * cc.val = cc.val; rw [e0]; omega
  | ⟨1, _⟩ => show win0_3.index t (1 : Fin 2) * 256 + 1 * h.val = h.val; rw [e1]; omega

/-- The lower weight half's block is the whole array at every point. -/
theorem blk_whi (c : Dev nD) (t : Fin cfg0.N) (d : Fin 128) (h : Fin 256) :
    (iblk m c 4 t : Vec Ideal S128x256 .f32) (ix2 d h) = (V m c main_v2 : S128x256.Idx → EReal) (ix2 d h) := by
  obtain ⟨-, -, -, -, -, -, -, -, -, -, -, e0, e1, -⟩ := idx_facts t
  unfold iblk
  rw [View.read_apply]
  show V m c main_v2 _ = V m c main_v2 _
  congr 1
  funext x
  apply Fin.ext
  match x with
  | ⟨0, _⟩ => show win0_4.index t (0 : Fin 2) * 128 + 1 * d.val = d.val; rw [e0]; omega
  | ⟨1, _⟩ => show win0_4.index t (1 : Fin 2) * 256 + 1 * h.val = h.val; rw [e1]; omega

/-- The bias block is the whole bias at every point. -/
theorem blk_bias (c : Dev nD) (t : Fin cfg0.N) (h : Fin 256) :
    (iblk m c 5 t : Vec Ideal S256 .f32) (ix1 h) = m ((c : Thread nD τ).loc main_arg3) (ix1 h) := by
  obtain ⟨-, -, -, -, -, -, -, -, -, -, -, -, -, e0, -⟩ := idx_facts t
  rw [← V_main_arg3 m c]
  unfold iblk
  rw [View.read_apply]
  show V m c main_arg3 _ = V m c main_arg3 _
  congr 1
  funext x
  apply Fin.ext
  match x with
  | ⟨0, _⟩ => show win0_5.index t (0 : Fin 1) * 256 + 1 * h.val = h.val; rw [e0]; omega

/-! ## One block's result is the readout of its molecules -/

/-- The body's result at row r and hidden unit h, for blocks that hold molecule b's rows of the arrays (the words'
    block slot-major, each word in [0, 255]), is the readout of molecule b. -/
theorem block_readout (x0 : Vec Ideal S32x256x128 .f32) (x1 : Vec Ideal S32x128x128 .f32) (x2 : Vec Ideal S32x8x128 .i32)
    (x3 : Vec Ideal S128x256 .f32) (x4 : Vec Ideal S128x256 .f32) (x5 : Vec Ideal S256 .f32)
    (w : SNbr.Idx → BitVec 32) (bond : SBond.Idx → EReal) (atom : SAtom.Idx → EReal) (W : SW.Idx → EReal)
    (bias : SBias.Idx → EReal) (b : Fin 512) (r : Fin 32) (h : Fin 256)
    (hx2 : ∀ i, 0 ≤ (x2 i).toInt ∧ (x2 i).toInt ≤ 255)
    (e0 : ∀ (n : Fin 256) (d : Fin 128), x0 (ix3 r n d) = bond (ix4 (0 : Fin 1) b n d))
    (e1 : ∀ (a : Fin 128) (cc : Fin 128), x1 (ix3 r a cc) = atom (ix3 b a cc))
    (e2 : ∀ (k : Fin 8) (a : Fin 128), x2 (ix3 r k a) = w (ix3 b a k))
    (e3 : ∀ cc : Fin 128, x3 (ix2 cc h) = W (ix2 (lo cc) h))
    (e4 : ∀ d : Fin 128, x4 (ix2 d h) = W (ix2 (hi d) h))
    (e5 : x5 (ix1 h) = bias (ix1 h)) :
    out0_6 (F := Ideal) x0 x1 x2 x3 x4 x5 (ix2 r h) = readout w bond atom W bias (ix2 b h) := by
  refine (block_apply x0 x1 x2 x3 x4 x5 hx2 r h).trans ?_
  show _ = ∑ a : Fin 128, max ((∑ cc : Fin 128, atom (ix3 b a cc) * W (ix2 (lo cc) h))
    + (∑ d : Fin 128, (∑ k : Fin 8, bond (ix4 (0 : Fin 1) b (rowOf (w (ix3 b a k))) d)) * W (ix2 (hi d) h)) + bias (ix1 h)) 0
  simp only [e0, e1, e2, e3, e4, e5]

/-! ## What a point writes back, the cover, and the array after the run -/

/-- What point t writes back is block t of the readout at the clipped neighbour words. -/
theorem flushed_eq (c : Dev nD) (t : Fin cfg0.N) :
    (dats m 0 c).flushed 6 t = ((cfg0.win 6).blk t).view.read (Elt Ideal)
      (readout (fun i => clipWord (m ((c : Thread nD τ).loc main_arg4) i)) (m ((c : Thread nD τ).loc main_arg0))
        (m ((c : Thread nD τ).loc main_arg1)) (m ((c : Thread nD τ).loc main_arg2)) (m ((c : Thread nD τ).loc main_arg3))) := by
  rw [Cert.KernelIdeal.Value.flushed6]
  funext j
  obtain ⟨r, h, rfl⟩ : ∃ (r : Fin 32) (h : Fin 256), j = ix2 r h := ⟨j 0, j 1, eq_ix2 (n0 := 32) (n1 := 256) j⟩
  obtain ⟨-, -, -, -, -, -, -, -, -, -, -, -, -, -, e0, e1⟩ := idx_facts t
  have hemb : ((cfg0.win 6).blk t).view.emb (ix2 r h) = (ix2 (mol t r) h : S512x256.Idx) := by
    funext a
    apply Fin.ext
    match a with
    | ⟨0, _⟩ => show win0_6.index t (0 : Fin 2) * 32 + 1 * r.val = 32 * t.val + r.val; rw [e0]; omega
    | ⟨1, _⟩ => show win0_6.index t (1 : Fin 2) * 256 + 1 * h.val = h.val; rw [e1]; omega
  show out0_6 (F := Ideal) (iblk m c 0 t) (iblk m c 1 t) (iblk m c 2 t) (iblk m c 3 t) (iblk m c 4 t) (iblk m c 5 t) (ix2 r h)
    = readout (fun i => clipWord (m ((c : Thread nD τ).loc main_arg4) i)) (m ((c : Thread nD τ).loc main_arg0))
        (m ((c : Thread nD τ).loc main_arg1)) (m ((c : Thread nD τ).loc main_arg2)) (m ((c : Thread nD τ).loc main_arg3))
        (((cfg0.win 6).blk t).view.emb (ix2 r h))
  rw [hemb]
  refine block_readout (iblk m c 0 t) (iblk m c 1 t) (iblk m c 2 t) (iblk m c 3 t) (iblk m c 4 t) (iblk m c 5 t)
    (fun i => clipWord (m ((c : Thread nD τ).loc main_arg4) i)) (m ((c : Thread nD τ).loc main_arg0))
    (m ((c : Thread nD τ).loc main_arg1)) (m ((c : Thread nD τ).loc main_arg2)) (m ((c : Thread nD τ).loc main_arg3))
    (mol t r) r h ?_ ?_ ?_ ?_ ?_ ?_ ?_
  · intro i
    obtain ⟨r', k, a, rfl⟩ : ∃ (r' : Fin 32) (k : Fin 8) (a : Fin 128), i = ix3 r' k a := ⟨i 0, i 1, i 2, eq_ix3 (n0 := 32) (n1 := 8) (n2 := 128) i⟩
    rw [blk_words m c t r' k a, V_words_apply m c]
    exact clip_range _
  · intro n d
    rw [blk_bond m c t r n d, V_bond_apply m c]
  · intro a cc
    exact blk_atom m c t r a cc
  · intro k a
    rw [blk_words m c t r k a, V_words_apply m c]
  · intro cc
    rw [blk_wlo m c t cc h, V_wlo_apply m c]
  · intro d
    rw [blk_whi m c t d h, V_whi_apply m c]
  · exact blk_bias m c t h

/-- An index of the output array is in point t's block iff each coordinate is in the block's range on its axis. -/
theorem mem_blk (t : Fin cfg0.N) (i : S512x256.Idx) :
    i ∈ ((cfg0.win 6).blk t).view.set ↔ ∀ a : Fin 2, win0_6.index t a * S32x256.size a ≤ (i a).val
      ∧ (i a).val < win0_6.index t a * S32x256.size a + S32x256.size a := by
  show i ∈ ((View.whole main_v5).slice (win0_6.rect t)).set ↔ _
  rw [View.set_slice_whole, Rect.mem_set_unit]
  exact Iff.rfl

/-- Every index of the output array is in the block of the point that holds its molecule: point b / 32. -/
theorem cover (i : S512x256.Idx) :
    ∃ t : Fin cfg0.N, (cfg0.win 6).flush t = true ∧ i ∈ ((cfg0.win 6).blk t).view.set := by
  have hN : cfg0.N = 16 := N_0
  have hi0 : (i 0).val < 512 := (i 0).isLt
  have hi1 : (i 1).val < 256 := (i 1).isLt
  have ht : (i 0).val / 32 < cfg0.N := by omega
  obtain ⟨-, -, -, -, -, -, -, -, -, -, -, -, -, -, e0, e1⟩ := idx_facts ⟨(i 0).val / 32, ht⟩
  refine ⟨⟨(i 0).val / 32, ht⟩, flush0_6 _, ?_⟩
  rw [mem_blk]
  intro a
  match a with
  | ⟨0, _⟩ =>
    show win0_6.index ⟨(i 0).val / 32, ht⟩ (0 : Fin 2) * 32 ≤ (i 0).val
      ∧ (i 0).val < win0_6.index ⟨(i 0).val / 32, ht⟩ (0 : Fin 2) * 32 + 32
    rw [e0]; show (i 0).val / 32 * 32 ≤ (i 0).val ∧ (i 0).val < (i 0).val / 32 * 32 + 32; omega
  | ⟨1, _⟩ =>
    show win0_6.index ⟨(i 0).val / 32, ht⟩ (1 : Fin 2) * 256 ≤ (i 1).val
      ∧ (i 1).val < win0_6.index ⟨(i 0).val / 32, ht⟩ (1 : Fin 2) * 256 + 256
    rw [e1]; omega

/-- After the run the output array is the readout at the clipped neighbour words. -/
theorem final (c : Dev nD) : (dats m 0 c).arrAt 6 cfg0.N
    = readout (fun i => clipWord (m ((c : Thread nD τ).loc main_arg4) i)) (m ((c : Thread nD τ).loc main_arg0)) (m ((c : Thread nD τ).loc main_arg1)) (m ((c : Thread nD τ).loc main_arg2)) (m ((c : Thread nD τ).loc main_arg3)) :=
  (dats m 0 c).arrAt_eq_of_cover 6 _ (fun t _ => flushed_eq m c t) cover

/-- The kernel's run: it terminates with the result array at the readout and the arguments unchanged. -/
theorem run : θ_run defs (onTc (τ := τ) (main (F := Ideal))) ⟨m, fun _ => 0, ρ⟩ fun r => ∀ c : Dev nD,
      r.2.mem ((c : Thread nD τ).loc main_v5) = readout (fun i => clipWord (m ((c : Thread nD τ).loc main_arg4) i)) (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Readout.Kernel

end
-- ==== Proof.lean ====
/-
  A graph readout: for each of 512 molecules, every atom gathers the features of its 8 neighbour bonds and sums them;
  the atom's own features and that message go through one dense layer with a bias and a ramp; the hidden units are
  summed over the molecule's 128 atoms.

  The two programs reach the same function of the arguments (`Cert.Readout.readout`, Proof/Spec.lean) by different
  routes. The reference gathers rows of the bond table directly, after wrapping a negative neighbour index round by the
  table's extent, and multiplies the joined [atom features | message] rows by the whole weight matrix
  (Proof/RefValue.lean). The kernel clips the neighbour indices into [0, 255], counts for every bond row how many of
  an atom's neighbour slots select it, obtains the message as the product of that count matrix with the bond rows, and
  multiplies atom features and messages by the two halves of the weight matrix separately (Proof/KernelCount.lean,
  Proof/KernelBlock.lean), one block of 32 molecules per grid point (Proof/KernelArray.lean). At the ideal values a
  change of float format is the identity, a product into a zero accumulator is a plain sum, the count matrix's entries
  are non-negative so the product distributes over them, and a sum over the 256 weight rows splits at row 128: the
  two routes agree for every extended-real input, finite or not.

  The routes differ only in how a neighbour index becomes a bond row: clipping sends a negative index to row 0, wrapping
  sends -1 to row 255. On a non-negative index both give the same row (Proof/Words.lean), and the precondition says
  every neighbour index is non-negative (Proof/PreFacts.lean); an index above 255 is brought to row 255 by both.

  The three frames: the kernel's two are the generated frame proofs; the reference has no kernel, and its frame is its
  generated run with the result dropped. The idealization rewrote nothing, so there is nothing to preserve.
-/
import proofs.«407583_j89885075571228_3_alg».proof.Defs
import proofs.«407583_j89885075571228_3_alg».proof.Proof.Gen.Kernel
import proofs.«407583_j89885075571228_3_alg».proof.Proof.Gen.Kernel.Frame
import proofs.«407583_j89885075571228_3_alg».proof.Proof.Gen.KernelIdeal
import proofs.«407583_j89885075571228_3_alg».proof.Proof.Gen.KernelIdeal.Frame
import proofs.«407583_j89885075571228_3_alg».proof.Proof.Gen.KernelIdeal.Value
import proofs.«407583_j89885075571228_3_alg».proof.Proof.Gen.ReferenceIdeal
import proofs.«407583_j89885075571228_3_alg».proof.Proof.Gen.ReferenceIdeal.Run
import proofs.«407583_j89885075571228_3_alg».proof.Proof.Gen.ReferenceIdeal.Read
import proofs.«407583_j89885075571228_3_alg».proof.Proof.Gen.Pre_finite_inputs
import proofs.«407583_j89885075571228_3_alg».proof.Proof.Spec
import proofs.«407583_j89885075571228_3_alg».proof.Proof.Words
import proofs.«407583_j89885075571228_3_alg».proof.Proof.PreFacts
import proofs.«407583_j89885075571228_3_alg».proof.Proof.RefValue
import proofs.«407583_j89885075571228_3_alg».proof.Proof.KernelArray
import Idealize.ShloMosaic.Adequacy
import Idealize.ShloMosaic.Init

noncomputable section

namespace Cert.Proof

open Idealize.ShloMosaic Idealize.SL.Sem Cert.Readout

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the readout of the arguments: the kernel at the clipped neighbour indices, the reference at
    the wrapped ones, which select the same bond rows because the precondition makes every index non-negative. -/
theorem algebraic : Cert.algebraic_KernelIdeal_ReferenceIdeal := by
  intro m ρ m' ρ' hpre hagree
  refine ⟨_, Cert.Readout.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Readout.Ref.ref_eq, (hagree c).1, (hagree c).2.1, (hagree c).2.2.1,
    (hagree c).2.2.2.1, (hagree c).2.2.2.2]
  exact readout_congr _ _ (fun i => (rowOf_clip_eq_ref _ (Cert.Readout.Pre.nbrs_nonneg _ _ _ _ _ (hpre c) i)).symm) _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
